-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64 .f32) (main_arg5 : FVec F S128x64 .f32) (main_arg6 : FVec F S128 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S1x1024x1024 .f32) (main_arg1 : FVec F S1024 .f32) (main_arg2 : FVec F S1024 .f32) (main_arg3 : FVec F S64x1024 .f32) (main_arg4 : FVec F S64 .f32) (main_arg5 : FVec F S128x64 .f32) (main_arg6 : FVec F S128 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S1x1024 : Shape := ⟨2, ![1, 1024]⟩
abbrev S1024x64 : Shape := ⟨2, ![1024, 64]⟩
abbrev S1x64 : Shape := ⟨2, ![1, 64]⟩
abbrev S1x1024x32 : Shape := ⟨3, ![1, 1024, 32]⟩
abbrev S1x128x1024 : Shape := ⟨3, ![1, 128, 1024]⟩
abbrev S1x128x32 : Shape := ⟨3, ![1, 128, 32]⟩
abbrev S1x128 : Shape := ⟨2, ![1, 128]⟩
abbrev S1x128x1 : Shape := ⟨3, ![1, 128, 1]⟩
abbrev S1x1x1024 : Shape := ⟨3, ![1, 1, 1024]⟩
abbrev S128x1024 : Shape := ⟨2, ![128, 1024]⟩
abbrev S128x32 : Shape := ⟨2, ![128, 32]⟩
abbrev S32x128 : Shape := ⟨2, ![32, 128]⟩
abbrev S1x1024x1024x128 : Shape := ⟨4, ![1, 1024, 1024, 128]⟩
abbrev S1x128x128x128 : Shape := ⟨4, ![1, 128, 128, 128]⟩
abbrev S128x1x32 : Shape := ⟨3, ![128, 1, 32]⟩
abbrev S128x128x32 : Shape := ⟨3, ![128, 128, 32]⟩
abbrev S16384x32 : Shape := ⟨2, ![16384, 32]⟩
abbrev S16384x128 : Shape := ⟨2, ![16384, 128]⟩

abbrev nBuf : Space → Nat
  | .hbm => 19
  | .vmem => 19
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S1x1024, .f32⟩
  | .hbm, ⟨8, _⟩ => ⟨S1x1024, .f32⟩
  | .hbm, ⟨9, _⟩ => ⟨S1024x64, .f32⟩
  | .hbm, ⟨10, _⟩ => ⟨S1x64, .f32⟩
  | .hbm, ⟨11, _⟩ => ⟨S1x1024x32, .f32⟩
  | .hbm, ⟨12, _⟩ => ⟨S1x1024x32, .f32⟩
  | .hbm, ⟨13, _⟩ => ⟨S128x32, .f32⟩
  | .hbm, ⟨14, _⟩ => ⟨S32x128, .f32⟩
  | .hbm, ⟨15, _⟩ => ⟨S128x32, .f32⟩
  | .hbm, ⟨16, _⟩ => ⟨S32x128, .f32⟩
  | .hbm, ⟨17, _⟩ => ⟨S1x128, .f32⟩
  | .hbm, ⟨18, _⟩ => ⟨S1x1024x1024x128, .f32⟩
  | .local _ .vmem, ⟨0, _⟩ => ⟨S1x128x1024, .f32⟩
  | .local _ .vmem, ⟨1, _⟩ => ⟨S1x128x1024, .f32⟩
  | .local _ .vmem, ⟨2, _⟩ => ⟨S1x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S1x128x32, .f32⟩
  | .local _ .vmem, ⟨7, _⟩ => ⟨S1x128x32, .f32⟩
  | .local _ .vmem, ⟨8, _⟩ => ⟨S1x128x32, .f32⟩
  | .local _ .vmem, ⟨9, _⟩ => ⟨S1x128x32, .f32⟩
  | .local _ .vmem, ⟨10, _⟩ => ⟨S1x128x32, .f32⟩
  | .local _ .vmem, ⟨11, _⟩ => ⟨S1x128x32, .f32⟩
  | .local _ .vmem, ⟨12, _⟩ => ⟨S1x128x32, .f32⟩
  | .local _ .vmem, ⟨13, _⟩ => ⟨S1x128x32, .f32⟩
  | .local _ .vmem, ⟨14, _⟩ => ⟨S32x128, .f32⟩
  | .local _ .vmem, ⟨15, _⟩ => ⟨S32x128, .f32⟩
  | .local _ .vmem, ⟨16, _⟩ => ⟨S1x128, .f32⟩
  | .local _ .vmem, ⟨17, _⟩ => ⟨S1x128x128x128, .f32⟩
  | .local _ .vmem, ⟨18, _⟩ => ⟨S1x128x128x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1024_S1x1024 : S1024.ShapeCasts S1x1024
  transposes_S64x1024_S1024x64_1_0 : S64x1024.Transposes [1, 0] S1024x64
  shapeCasts_S64_S1x64 : S64.ShapeCasts S1x64
  inb_S1x128x1024_S1x128x1024_0_0_0 : ∀ a, (![0, 0, 0] : Fin 3 → Nat) a + S1x128x1024.size a ≤ S1x128x1024.size a
  h_S1x128x1024 : 0 < S1x128x1024.numel
  reduces_S1x128x1024_S1x128 : S1x128x1024.Reduces [2] S1x128
  shapeCasts_S1x128_S1x128x1 : S1x128.ShapeCasts S1x128x1
  broadcasts_S1x128x1_S1x128x1024 : S1x128x1.Broadcasts S1x128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S1x128x1024 : S1x1x1024.Broadcasts S1x128x1024
  shapeCasts_S1x128x1024_S128x1024 : S1x128x1024.ShapeCasts S128x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  slices_S128x64_o0_0_S128x32 : S128x64.Slices ![0, 0] S128x32
  slices_S128x64_o0_32_S128x32 : S128x64.Slices ![0, 32] S128x32
  shapeCasts_S128x32_S1x128x32 : S128x32.ShapeCasts S1x128x32
  inb_S1x128x32_S1x128x32_0_0_0 : ∀ a, (![0, 0, 0] : Fin 3 → Nat) a + S1x128x32.size a ≤ S1x128x32.size a
  h_S1x128x32 : 0 < S1x128x32.numel
  slices_S128x64_S128x32_0_0 : S128x64.Slices ![0, 0] S128x32
  transposes_S128x32_S32x128_1_0 : S128x32.Transposes [1, 0] S32x128
  slices_S128x64_S128x32_0_32 : S128x64.Slices ![0, 32] S128x32
  shapeCasts_S128_S1x128 : S128.ShapeCasts S1x128
  shapeCasts_S1x128x32_S1x128x32 : S1x128x32.ShapeCasts S1x128x32
  shapeCasts_S1x128x32_S128x32 : S1x128x32.ShapeCasts S128x32
  shapeCasts_S128x32_S128x1x32 : S128x32.ShapeCasts S128x1x32
  broadcasts_S1x128x32_S128x128x32 : S1x128x32.Broadcasts S128x128x32
  broadcasts_S128x1x32_S128x128x32 : S128x1x32.Broadcasts S128x128x32
  shapeCasts_S128x128x32_S16384x32 : S128x128x32.ShapeCasts S16384x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  shapeCasts_S16384x128_S1x128x128x128 : S16384x128.ShapeCasts S1x128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  dot_S128x1024_S1024x64_S128x64_1_0_0_1_n_n_wf : DotDims.WF S128x1024 S1024x64 S128x64 [1] [0] [0] [1] [] []
  dot_S16384x32_S32x128_S16384x128_1_0_0_1_n_n_wf : DotDims.WF S16384x32 S32x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S1x1024x1024.size a
  hwx0_0 : ∀ i : grid0.Coords, EltTy.bits .f32 = 32 ∨ (Rect.block (s := S1x1024x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32.size a ≤ S1x1024x32.size a
  hwx0_5 : ∀ i : grid0.Coords, EltTy.bits .f32 = 32 ∨ (Rect.block (s := S1x1024x32) S1x128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x32.size a ≤ S1x1024x32.size a
  hwx0_6 : ∀ i : grid0.Coords, EltTy.bits .f32 = 32 ∨ (Rect.block (s := S1x1024x32) S1x128x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x32.size a ≤ S1x1024x32.size a
  hwx1_0 : ∀ i : grid1.Coords, EltTy.bits .f32 = 32 ∨ (Rect.block (s := S1x1024x32) S1x128x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x32.size a ≤ S1x1024x32.size a
  hwx1_1 : ∀ i : grid1.Coords, EltTy.bits .f32 = 32 ∨ (Rect.block (s := S1x1024x32) S1x128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128x128.size a ≤ S1x1024x1024x128.size a
  hwx1_5 : ∀ i : grid1.Coords, EltTy.bits .f32 = 32 ∨ (Rect.block (s := S1x1024x1024x128) S1x128x128x128.size (cc1_transform_5 i) (hinb1_5 i)).WholeWords (EltTy.packing .f32)

variable [Facts₀]

def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S16384x32_S32x128_S16384x128_1_0_0_1_n_n : DotDims S16384x32 S32x128 S16384x128 where
  lhsContracting := [1]
  rhsContracting := [0]
  lhsNonContracting := [0]
  rhsNonContracting := [1]
  lhsBatch := []
  rhsBatch := []
  wf := dot_S16384x32_S32x128_S16384x128_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x128x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x128x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S1x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x128x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S1x128x128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x1024x1024 : Shape := ⟨3, ![1, 1024, 1024]⟩
abbrev S1024 : Shape := ⟨1, ![1024]⟩
abbrev S64x1024 : Shape := ⟨2, ![64, 1024]⟩
abbrev S64 : Shape := ⟨1, ![64]⟩
abbrev S128x64 : Shape := ⟨2, ![128, 64]⟩
abbrev S128 : Shape := ⟨1, ![128]⟩
abbrev S_ : Shape := ⟨0, ![]⟩
abbrev S1x1024 : Shape := ⟨2, ![1, 1024]⟩
abbrev S1x1024x1 : Shape := ⟨3, ![1, 1024, 1]⟩
abbrev S1x1x1024 : Shape := ⟨3, ![1, 1, 1024]⟩
abbrev S1x1024x64 : Shape := ⟨3, ![1, 1024, 64]⟩
abbrev S1x1x64 : Shape := ⟨3, ![1, 1, 64]⟩
abbrev S1x1024x32 : Shape := ⟨3, ![1, 1024, 32]⟩
abbrev S1x1x1024x32 : Shape := ⟨4, ![1, 1, 1024, 32]⟩
abbrev S1x1024x1x32 : Shape := ⟨4, ![1, 1024, 1, 32]⟩
abbrev S1x1024x1024x32 : Shape := ⟨4, ![1, 1024, 1024, 32]⟩
abbrev S1x1024x1024x64 : Shape := ⟨4, ![1, 1024, 1024, 64]⟩
abbrev S1x1024x1024x128 : Shape := ⟨4, ![1, 1024, 1024, 128]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S_, .f32⟩
  | .hbm, ⟨8, _⟩ => ⟨S1x1024, .f32⟩
  | .hbm, ⟨9, _⟩ => ⟨S1x1024x1, .f32⟩
  | .hbm, ⟨10, _⟩ => ⟨S_, .f32⟩
  | .hbm, ⟨11, _⟩ => ⟨S1x1024x1, .f32⟩
  | .hbm, ⟨12, _⟩ => ⟨S1x1024x1, .f32⟩
  | .hbm, ⟨13, _⟩ => ⟨S1x1024x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S1x1024, .f32⟩
  | .hbm, ⟨18, _⟩ => ⟨S1x1024x1, .f32⟩
  | .hbm, ⟨19, _⟩ => ⟨S_, .f32⟩
  | .hbm, ⟨20, _⟩ => ⟨S1x1024x1, .f32⟩
  | .hbm, ⟨21, _⟩ => ⟨S1x1024x1, .f32⟩
  | .hbm, ⟨22, _⟩ => ⟨S1x1024x1024, .f32⟩
  | .hbm, ⟨23, _⟩ => ⟨S1x1024x1024, .f32⟩
  | .hbm, ⟨24, _⟩ => ⟨S_, .f32⟩
  | .hbm, ⟨25, _⟩ => ⟨S1x1024x1, .f32⟩
  | .hbm, ⟨26, _⟩ => ⟨S1x1024x1, .f32⟩
  | .hbm, ⟨27, _⟩ => ⟨S1x1024x1, .f32⟩
  | .hbm, ⟨28, _⟩ => ⟨S1x1024x1024, .f32⟩
  | .hbm, ⟨29, _⟩ => ⟨S1x1024x1024, .f32⟩
  | .hbm, ⟨30, _⟩ => ⟨S1x1x1024, .f32⟩
  | .hbm, ⟨31, _⟩ => ⟨S1x1024x1024, .f32⟩
  | .hbm, ⟨32, _⟩ => ⟨S1x1024x1024, .f32⟩
  | .hbm, ⟨33, _⟩ => ⟨S1x1x1024, .f32⟩
  | .hbm, ⟨34, _⟩ => ⟨S1x1024x1024, .f32⟩
  | .hbm, ⟨35, _⟩ => ⟨S1x1024x1024, .f32⟩
  | .hbm, ⟨36, _⟩ => ⟨S1x1024x64, .f32⟩
  | .hbm, ⟨37, _⟩ => ⟨S1x1x64, .f32⟩
  | .hbm, ⟨38, _⟩ => ⟨S1x1024x64, .f32⟩
  | .hbm, ⟨39, _⟩ => ⟨S1x1024x64, .f32⟩
  | .hbm, ⟨40, _⟩ => ⟨S1x1024x32, .f32⟩
  | .hbm, ⟨41, _⟩ => ⟨S1x1024x32, .f32⟩
  | .hbm, ⟨42, _⟩ => ⟨S1x1x1024x32, .f32⟩
  | .hbm, ⟨43, _⟩ => ⟨S1x1024x1x32, .f32⟩
  | .hbm, ⟨44, _⟩ => ⟨S1x1024x1024x32, .f32⟩
  | .hbm, ⟨45, _⟩ => ⟨S1x1024x1024x32, .f32⟩
  | .hbm, ⟨46, _⟩ => ⟨S1x1024x1024x32, .f32⟩
  | .hbm, ⟨47, _⟩ => ⟨S1x1x1024x32, .f32⟩
  | .hbm, ⟨48, _⟩ => ⟨S1x1024x1x32, .f32⟩
  | .hbm, ⟨49, _⟩ => ⟨S1x1024x1024x32, .f32⟩
  | .hbm, ⟨50, _⟩ => ⟨S1x1024x1024x32, .f32⟩
  | .hbm, ⟨51, _⟩ => ⟨S1x1024x1024x32, .f32⟩
  | .hbm, ⟨52, _⟩ => ⟨S1x1024x1024x64, .f32⟩
  | .hbm, ⟨53, _⟩ => ⟨S1x1024x1024x128, .f32⟩
  | .hbm, ⟨54, _⟩ => ⟨S1x1x1x128, .f32⟩
  | .hbm, ⟨55, _⟩ => ⟨S1x1024x1024x128, .f32⟩
  | .hbm, ⟨56, _⟩ => ⟨S1x1024x1024x128, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  reducesTo_S1x1024x1024_S1x1024_d2 : S1x1024x1024.ReducesTo [2] S1x1024
  h_S_ : 0 < S_.numel
  bcast_S1x1024_S1x1024x1_0_1 : S1x1024.BroadcastsInDim S1x1024x1 (![0, 1] : Fin 2 → Fin S1x1024x1.rank)
  bcast_S_S1x1024x1 : S_.BroadcastsInDim S1x1024x1 (![] : Fin 0 → Fin S1x1024x1.rank)
  bcast_S1x1024x1_S1x1024x1024_0_1_2 : S1x1024x1.BroadcastsInDim S1x1024x1024 (![0, 1, 2] : Fin 3 → Fin S1x1024x1024.rank)
  bcast_S1024_S1x1x1024_2 : S1024.BroadcastsInDim S1x1x1024 (![2] : Fin 1 → Fin S1x1x1024.rank)
  bcast_S1x1x1024_S1x1024x1024_0_1_2 : S1x1x1024.BroadcastsInDim S1x1024x1024 (![0, 1, 2] : Fin 3 → Fin S1x1024x1024.rank)
  bcast_S64_S1x1x64_2 : S64.BroadcastsInDim S1x1x64 (![2] : Fin 1 → Fin S1x1x64.rank)
  bcast_S1x1x64_S1x1024x64_0_1_2 : S1x1x64.BroadcastsInDim S1x1024x64 (![0, 1, 2] : Fin 3 → Fin S1x1024x64.rank)
  slices_S1x1024x64_S1x1024x32_0_0_0 : S1x1024x64.Slices ![0, 0, 0] S1x1024x32
  slices_S1x1024x64_S1x1024x32_0_0_32 : S1x1024x64.Slices ![0, 0, 32] S1x1024x32
  bcast_S1x1024x32_S1x1x1024x32_0_2_3 : S1x1024x32.BroadcastsInDim S1x1x1024x32 (![0, 2, 3] : Fin 3 → Fin S1x1x1024x32.rank)
  bcast_S1x1024x32_S1x1024x1x32_0_1_3 : S1x1024x32.BroadcastsInDim S1x1024x1x32 (![0, 1, 3] : Fin 3 → Fin S1x1024x1x32.rank)
  bcast_S1x1x1024x32_S1x1024x1024x32_0_1_2_3 : S1x1x1024x32.BroadcastsInDim S1x1024x1024x32 (![0, 1, 2, 3] : Fin 4 → Fin S1x1024x1024x32.rank)
  bcast_S1x1024x1x32_S1x1024x1024x32_0_1_2_3 : S1x1024x1x32.BroadcastsInDim S1x1024x1024x32 (![0, 1, 2, 3] : Fin 4 → Fin S1x1024x1024x32.rank)
  concatenates_S1x1024x1024x32_S1x1024x1024x32_S1x1024x1024x64_d3 : Shape.Concatenates [S1x1024x1024x32, S1x1024x1024x32] S1x1024x1024x64 3
  bcast_S128_S1x1x1x128_3 : S128.BroadcastsInDim S1x1x1x128 (![3] : Fin 1 → Fin S1x1x1x128.rank)
  bcast_S1x1x1x128_S1x1024x1024x128_0_1_2_3 : S1x1x1x128.BroadcastsInDim S1x1024x1024x128 (![0, 1, 2, 3] : Fin 4 → Fin S1x1024x1024x128.rank)
  dot_S1x1024x1024_S64x1024_S1x1024x64_2_1_01_0_n_n_wf : DotDims.WF S1x1024x1024 S64x1024 S1x1024x64 [2] [1] [0, 1] [0] [] []
  dot_S1x1024x1024x64_S128x64_S1x1024x1024x128_3_1_012_0_n_n_wf : DotDims.WF S1x1024x1024x64 S128x64 S1x1024x1024x128 [3] [1] [0, 1, 2] [0] [] []

variable [Facts₀]

def dot_S1x1024x1024_S64x1024_S1x1024x64_2_1_01_0_n_n : DotDims S1x1024x1024 S64x1024 S1x1024x64 where
  lhsContracting := [2]
  rhsContracting := [1]
  lhsNonContracting := [0, 1]
  rhsNonContracting := [0]
  lhsBatch := []
  rhsBatch := []
  wf := dot_S1x1024x1024_S64x1024_S1x1024x64_2_1_01_0_n_n_wf
def dot_S1x1024x1024x64_S128x64_S1x1024x1024x128_3_1_012_0_n_n : DotDims S1x1024x1024x64 S128x64 S1x1024x1024x128 where
  lhsContracting := [3]
  rhsContracting := [1]
  lhsNonContracting := [0, 1, 2]
  rhsNonContracting := [0]
  lhsBatch := []
  rhsBatch := []
  wf := dot_S1x1024x1024x64_S128x64_S1x1024x1024x128_3_1_012_0_n_n_wf

class Facts : Prop extends Facts₀ where

variable [Facts]
-- ==== Proof.Spec.lean ====
/-
  What the program computes, as mathematics over the extended reals, with no program in sight.

  A row `r` of 1024 entries is normalised: its mean `μ = (∑ r) / 1024`, its variance `(∑ (r - μ)²) / 1024`, the
  normalised entry `(r c - μ) · rsqrt (variance + ε) · g c + b c` for a gain `g` and a bias `b`; the row is then
  projected on a weight column `w` with an offset: `∑ c, norm c · w c + b₀`.  The 64 projections of row `l` are cut
  into the row's first 32 (called `q`) and last 32 (called `k`).  The pairwise entry `(i, j, z)` is
  `∑ d<32, (q j d · k i d) · o z d  +  ∑ d<32, (q j d - k i d) · o z (32 + d)  +  c z`.
  The division is the extended reals' `Ideal.div`, the reciprocal square root `Ideal.rsqrt`; the two literals
  (1024 and ε) stay the binary words both programs print.
-/
import Idealize.ShloMosaic.PureOps.Ideal
import Idealize.ShloMosaic.PureOps.Ideal.Laws
import Idealize.ShloMosaic.Lib.ValueIdx

noncomputable section

namespace Cert.PairSpec

open Idealize.ShloMosaic Idealize.ShloMosaic.ValueIdx

/-- The row length 1024 as both programs spell it: the f32 word of 1024.0. -/
abbrev nCols : EReal := Ideal.ofBits .f32 0x44800000#32
/-- The ε both programs add to the variance: the f32 word nearest 1e-5. -/
abbrev eps : EReal := Ideal.ofBits .f32 0x3727C5AC#32

/-- The mean of a row. -/
def rowMean (r : Fin 1024 → EReal) : EReal := Ideal.div (∑ c : Fin 1024, r c) nCols

/-- The reciprocal standard deviation of a row (variance about the mean, plus ε, under `rsqrt`). -/
def rowInv (r : Fin 1024 → EReal) : EReal :=
  Ideal.rsqrt (Ideal.div (∑ c : Fin 1024, (r c - rowMean r) * (r c - rowMean r)) nCols + eps)

/-- One normalised entry of a row, with gain `g` and bias `b`. -/
def rowNorm (r g b : Fin 1024 → EReal) (c : Fin 1024) : EReal := (r c - rowMean r) * rowInv r * g c + b c

/-- The normalised row projected on one weight column `w`, plus the offset `b₀`. -/
def rowProj (r g b w : Fin 1024 → EReal) (b₀ : EReal) : EReal := (∑ c : Fin 1024, rowNorm r g b c * w c) + b₀

/-- Entry `(l, e)` of the projection of the normalised sequence: row `l` of `x`, weight row `e` of `pw`. -/
def proj (x : (⟨3, ![1, 1024, 1024]⟩ : Shape).Idx → EReal) (g b : (⟨1, ![1024]⟩ : Shape).Idx → EReal)
    (pw : (⟨2, ![64, 1024]⟩ : Shape).Idx → EReal) (pb : (⟨1, ![64]⟩ : Shape).Idx → EReal) (l : Fin 1024) (e : Fin 64) : EReal :=
  rowProj (fun c => x (ix3 (0 : Fin 1) l c)) (fun c => g (ix1 c)) (fun c => b (ix1 c)) (fun c => pw (ix2 e c)) (pb (ix1 e))

/-- The first 32 projections of every row. -/
def qArr (x : (⟨3, ![1, 1024, 1024]⟩ : Shape).Idx → EReal) (g b : (⟨1, ![1024]⟩ : Shape).Idx → EReal)
    (pw : (⟨2, ![64, 1024]⟩ : Shape).Idx → EReal) (pb : (⟨1, ![64]⟩ : Shape).Idx → EReal) :
    (⟨3, ![1, 1024, 32]⟩ : Shape).Idx → EReal :=
  fun i => proj x g b pw pb (i 1) (Fin.castAdd 32 (i 2))

/-- The last 32 projections of every row. -/
def kArr (x : (⟨3, ![1, 1024, 1024]⟩ : Shape).Idx → EReal) (g b : (⟨1, ![1024]⟩ : Shape).Idx → EReal)
    (pw : (⟨2, ![64, 1024]⟩ : Shape).Idx → EReal) (pb : (⟨1, ![64]⟩ : Shape).Idx → EReal) :
    (⟨3, ![1, 1024, 32]⟩ : Shape).Idx → EReal :=
  fun i => proj x g b pw pb (i 1) (Fin.natAdd 32 (i 2))

/-- The pairwise entry `(i, j, z)`: products and differences of `q`'s row `j` and `k`'s row `i`, against the two
    halves of row `z` of `ow`, plus `ob z`. -/
def pairAt (q k : (⟨3, ![1, 1024, 32]⟩ : Shape).Idx → EReal) (ow : (⟨2, ![128, 64]⟩ : Shape).Idx → EReal)
    (ob : (⟨1, ![128]⟩ : Shape).Idx → EReal) (i j : Fin 1024) (z : Fin 128) : EReal :=
  ((∑ d : Fin 32, (q (ix3 (0 : Fin 1) j d) * k (ix3 (0 : Fin 1) i d)) * ow (ix2 z (Fin.castAdd 32 d)))
    + (∑ d : Fin 32, (q (ix3 (0 : Fin 1) j d) - k (ix3 (0 : Fin 1) i d)) * ow (ix2 z (Fin.natAdd 32 d))))
    + ob (ix1 z)

/-- The whole pairwise array from `q`, `k` and the output weights. -/
def pairArr (q k : (⟨3, ![1, 1024, 32]⟩ : Shape).Idx → EReal) (ow : (⟨2, ![128, 64]⟩ : Shape).Idx → EReal)
    (ob : (⟨1, ![128]⟩ : Shape).Idx → EReal) : (⟨4, ![1, 1024, 1024, 128]⟩ : Shape).Idx → EReal :=
  fun y => pairAt q k ow ob (y 1) (y 2) (y 3)

/-- The result as one function of the seven arguments. -/
def result (x : (⟨3, ![1, 1024, 1024]⟩ : Shape).Idx → EReal) (g b : (⟨1, ![1024]⟩ : Shape).Idx → EReal)
    (pw : (⟨2, ![64, 1024]⟩ : Shape).Idx → EReal) (pb : (⟨1, ![64]⟩ : Shape).Idx → EReal)
    (ow : (⟨2, ![128, 64]⟩ : Shape).Idx → EReal) (ob : (⟨1, ![128]⟩ : Shape).Idx → EReal) :
    (⟨4, ![1, 1024, 1024, 128]⟩ : Shape).Idx → EReal :=
  pairArr (qArr x g b pw pb) (kArr x g b pw pb) ow ob

/-- A sum over 64 terms is the sum of its first 32 and of its last 32 (addition of extended reals is commutative and
    associative, infinities included: nothing finite is asked). -/
theorem sum64_split (f : Fin 64 → EReal) :
    (∑ d : Fin 64, f d) = (∑ d : Fin 32, f (Fin.castAdd 32 d)) + ∑ d : Fin 32, f (Fin.natAdd 32 d) :=
  Fin.sum_univ_add (M := EReal) (a := 32) (b := 32) f

end Cert.PairSpec

end
-- ==== Proof.Stage1Body.lean ====
/-
  The first kernel's arithmetic at one entry.  With a block `x0` of 128 rows of the sequence, the gain and bias rows `x1`, `x2`,
  the transposed projection weights `x3` ([1024, 64]) and the projection bias row `x4`, entry `(p, e)` of what the body computes
  before it cuts it in two is the normalised row `p` projected on column `e`, plus the bias at `e`.
-/
import proofs.«167212_j3453153706645_1_alg».proof.Proof.Gen.KernelIdeal.Skeleton
import proofs.«167212_j3453153706645_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ProjBody

open Cert.KernelIdeal Cert.KernelIdeal.Gen Idealize.ShloMosaic Idealize.ShloMosaic.ValueIdx

/-! ## Layout: columns, rows and the flattened block

A per-row quantity lives in a `[1, 128]` vector, is viewed as a `[1, 128, 1]` column and spread over the 1024 lanes; a
per-lane quantity (gain, bias) lives in a `[1, 1024]` row, is viewed as `[1, 1, 1024]` and spread over the 128 rows. -/

section Layout
variable {α : Type}

/-- A `[1, 128]` vector viewed as a `[1, 128, 1]` column: entry `(0, p, z)` is the vector's entry `(0, p)`. -/
theorem col_cast_at (w : S1x128.Idx → α) (h : S1x128.ShapeCasts S1x128x1) (p : Fin 128) (z : Fin 1) :
    shapeCast S1x128x1 w h (ix3 (0 : Fin 1) p z) = w (ix2 (0 : Fin 1) p) :=
  shapeCast_apply w h _ _ (by
    rw [Shape.rowMajor_val_three, Shape.rowMajor_val_two]
    show (0 : ℕ) * 128 + p.val = ((0 : ℕ) * 128 + p.val) * 1 + z.val
    have := z.isLt; omega)

/-- A `[1, 128, 1]` column spread over the lanes: entry `(0, p, c)` is the column's entry `(0, p, 0)`. -/
theorem col_bcast_at (u : S1x128x1.Idx → α) (h : S1x128x1.Broadcasts S1x128x1024) (p : Fin 128) (c : Fin 1024) :
    broadcastTo S1x128x1024 u h (ix3 (0 : Fin 1) p c) = u (ix3 (0 : Fin 1) p (0 : Fin 1)) := by
  refine broadcastTo_apply u h _ _ fun ax => ?_
  match ax with
  | ⟨0, _⟩ => rfl
  | ⟨1, _⟩ => rfl
  | ⟨2, _⟩ => rfl

/-- A `[1, 1, 1024]` row spread over the rows: entry `(0, p, c)` is the row's entry `(0, 0, c)`. -/
theorem row_bcast_at (u : S1x1x1024.Idx → α) (h : S1x1x1024.Broadcasts S1x128x1024) (p : Fin 128) (c : Fin 1024) :
    broadcastTo S1x128x1024 u h (ix3 (0 : Fin 1) p c) = u (ix3 (0 : Fin 1) (0 : Fin 1) c) := by
  refine broadcastTo_apply u h _ _ fun ax => ?_
  match ax with
  | ⟨0, _⟩ => rfl
  | ⟨1, _⟩ => rfl
  | ⟨2, _⟩ => rfl

/-- A `[1, 1024]` row, recast to itself, viewed as `[1, 1, 1024]` and spread over the rows: entry `(0, p, c)` is the
    row's entry `(0, c)`. -/
theorem row_at (r : S1x1024.Idx → α) (h1 : S1x1024.ShapeCasts S1x1024) (h2 : S1x1024.ShapeCasts S1x1x1024)
    (h3 : S1x1x1024.Broadcasts S1x128x1024) (p : Fin 128) (c : Fin 1024) :
    broadcastTo S1x128x1024 (shapeCast S1x1x1024 (shapeCast S1x1024 r h1) h2) h3 (ix3 (0 : Fin 1) p c)
      = r (ix2 (0 : Fin 1) c) := by
  rw [shapeCast_self]
  exact (row_bcast_at _ h3 p c).trans (shapeCast_ab_1ab_apply r h2 0 0 c)

end Layout

/-! ## The row statistics -/

/-- The sum over the lanes of a `[1, 128, 1024]` block, at row `p`: the sum of the row's 1024 entries. -/
theorem lane_sum_at (v : FVec Ideal S1x128x1024 .f32) (h : S1x128x1024.Reduces [2] S1x128) (hφ : FKind.Formats .f32)
    (hacc : (0x00000000#32 : BitVec 32) = FKind.add.neutral .f32 hφ) (p : Fin 128) :
    multiReduction (F := Ideal) .add [2] S1x128 v 0x00000000#32 h hφ hacc (ix2 (0 : Fin 1) p)
      = ∑ c : Fin 1024, v (ix3 (0 : Fin 1) p c) := by
  refine (Ideal.multiReduction_add_single v _ h hφ hacc _).trans ?_
  refine Finset.sum_congr rfl fun k _ => congrArg v (funext fun a => Fin.ext ?_)
  match a with
  | ⟨0, _⟩ => rfl
  | ⟨1, _⟩ => rfl
  | ⟨2, _⟩ => rfl

/-- The mean column: the lane sum of a block divided by the row length, spread back over the lanes, is at `(0, p, c)`
    the mean of row `p`. -/
theorem mean_col_at (v : FVec Ideal S1x128x1024 .f32) (h : S1x128x1024.Reduces [2] S1x128) (hφ : FKind.Formats .f32)
    (hacc : (0x00000000#32 : BitVec 32) = FKind.add.neutral .f32 hφ) (h2 : S1x128.ShapeCasts S1x128x1)
    (h3 : S1x128x1.Broadcasts S1x128x1024) (p : Fin 128) (c : Fin 1024) :
    broadcastTo S1x128x1024
        (divf (F := Ideal) (φ := .f32) (shapeCast S1x128x1 (multiReduction (F := Ideal) .add [2] S1x128 v 0x00000000#32 h hφ hacc) h2)
          (broadcast S1x128x1 (Scalar.ofBits .f32 0x44800000#32))) h3 (ix3 (0 : Fin 1) p c)
      = Cert.PairSpec.rowMean (fun c => v (ix3 (0 : Fin 1) p c)) := by
  refine (col_bcast_at _ h3 p c).trans ?_
  unfold Cert.PairSpec.rowMean
  refine (divf_apply _ _ _).trans (congrArg₂ Ideal.div ?_ rfl)
  exact (col_cast_at _ h2 p 0).trans (lane_sum_at v h hφ hacc p)

/-- A block less its mean column, at `(0, p, c)`: the entry less the mean of row `p`. -/
theorem center_at (v : FVec Ideal S1x128x1024 .f32) (h : S1x128x1024.Reduces [2] S1x128) (hφ : FKind.Formats .f32)
    (hacc : (0x00000000#32 : BitVec 32) = FKind.add.neutral .f32 hφ) (h2 : S1x128.ShapeCasts S1x128x1)
    (h3 : S1x128x1.Broadcasts S1x128x1024) (p : Fin 128) (c : Fin 1024) :
    subf v (broadcastTo S1x128x1024
        (divf (F := Ideal) (φ := .f32) (shapeCast S1x128x1 (multiReduction (F := Ideal) .add [2] S1x128 v 0x00000000#32 h hφ hacc) h2)
          (broadcast S1x128x1 (Scalar.ofBits .f32 0x44800000#32))) h3) (ix3 (0 : Fin 1) p c)
      = v (ix3 (0 : Fin 1) p c) - Cert.PairSpec.rowMean (fun c => v (ix3 (0 : Fin 1) p c)) :=
  (subf_apply _ _ _).trans (congrArg (v (ix3 (0 : Fin 1) p c) - ·) (mean_col_at v h hφ hacc h2 h3 p c))

/-- The reciprocal-deviation column from a block `w` of squared deviations: `rsqrt` of the lane sum of `w` over the row
    length plus ε, spread over the lanes, at `(0, p, c)`. -/
theorem inv_col_at (w : FVec Ideal S1x128x1024 .f32) (h : S1x128x1024.Reduces [2] S1x128) (hφ : FKind.Formats .f32)
    (hacc : (0x00000000#32 : BitVec 32) = FKind.add.neutral .f32 hφ) (h2 : S1x128.ShapeCasts S1x128x1)
    (h3 : S1x128x1.Broadcasts S1x128x1024) (p : Fin 128) (c : Fin 1024) :
    broadcastTo S1x128x1024
        (rsqrt (F := Ideal) (φ := .f32)
          (addf (divf (shapeCast S1x128x1 (multiReduction (F := Ideal) .add [2] S1x128 w 0x00000000#32 h hφ hacc) h2)
              (broadcast S1x128x1 (Scalar.ofBits .f32 0x44800000#32)))
            (broadcast S1x128x1 (Scalar.ofBits .f32 0x3727C5AC#32)))) h3 (ix3 (0 : Fin 1) p c)
      = Ideal.rsqrt (Ideal.div (∑ c : Fin 1024, w (ix3 (0 : Fin 1) p c)) Cert.PairSpec.nCols + Cert.PairSpec.eps) := by
  refine (col_bcast_at _ h3 p c).trans ?_
  refine congrArg (fun t => Ideal.rsqrt (Ideal.div t Cert.PairSpec.nCols + Cert.PairSpec.eps)) ?_
  exact (col_cast_at _ h2 p 0).trans (lane_sum_at w h hφ hacc p)

/-! ## The block product

The product's dimension numbers contract the left operand's axis 1 with the right operand's axis 0: at output `(p, e)`
and contraction position `q` the left operand is read at `(p, q)` and the right one at `(q, e)`. -/

theorem lhs_proj_0 (i : S128x64.Idx) (q : dot_S128x1024_S1024x64_S128x64_1_0_0_1_n_n.contr.Idx) :
    (dot_S128x1024_S1024x64_S128x64_1_0_0_1_n_n.lhsIdx i q 0).val = (i 0).val := by
  unfold DotDims.lhsIdx
  rw [dif_neg (show ¬(0 : Fin S128x1024.rank) ∈ dot_S128x1024_S1024x64_S128x64_1_0_0_1_n_n.lhsBatch by decide),
    dif_pos (show (0 : Fin S128x1024.rank) ∈ dot_S128x1024_S1024x64_S128x64_1_0_0_1_n_n.lhsNonContracting by decide)]
  rfl
theorem lhs_proj_1 (i : S128x64.Idx) (q : dot_S128x1024_S1024x64_S128x64_1_0_0_1_n_n.contr.Idx) :
    (dot_S128x1024_S1024x64_S128x64_1_0_0_1_n_n.lhsIdx i q 1).val = (q ⟨0, by decide⟩).val :=
  dot_S128x1024_S1024x64_S128x64_1_0_0_1_n_n.lhsIdx_val_of_single rfl i q
theorem rhs_proj_0 (i : S128x64.Idx) (q : dot_S128x1024_S1024x64_S128x64_1_0_0_1_n_n.contr.Idx) :
    (dot_S128x1024_S1024x64_S128x64_1_0_0_1_n_n.rhsIdx i q 0).val = (q ⟨0, by decide⟩).val :=
  dot_S128x1024_S1024x64_S128x64_1_0_0_1_n_n.rhsIdx_val_of_single rfl i q
theorem rhs_proj_1 (i : S128x64.Idx) (q : dot_S128x1024_S1024x64_S128x64_1_0_0_1_n_n.contr.Idx) :
    (dot_S128x1024_S1024x64_S128x64_1_0_0_1_n_n.rhsIdx i q 1).val = (i 1).val := by
  unfold DotDims.rhsIdx
  rw [dif_neg (show ¬(1 : Fin S1024x64.rank) ∈ dot_S128x1024_S1024x64_S128x64_1_0_0_1_n_n.rhsBatch by decide),
    dif_pos (show (1 : Fin S1024x64.rank) ∈ dot_S128x1024_S1024x64_S128x64_1_0_0_1_n_n.rhsNonContracting by decide)]
  rfl

/-- The block product into a zero accumulator, at `(p, e)`: the sum over the 1024 columns `c` of the left operand at
    `(p, c)` times the right operand at `(c, e)`. -/
theorem matmul_at (a : FVec Ideal S128x1024 .bf16) (b : FVec Ideal S1024x64 .bf16) (p : Fin 128) (e : Fin 64) :
    matmul dot_S128x1024_S1024x64_S128x64_1_0_0_1_n_n none a b (constant S128x64 .f32 0x00000000#32) (ix2 p e)
      = ∑ c : Fin 1024, a (ix2 p c) * b (ix2 c e) := by
  refine (Ideal.matmul_constant_zero_apply dot_S128x1024_S1024x64_S128x64_1_0_0_1_n_n none a b (ix2 p e)).trans ?_
  rw [← Equiv.sum_comp (contrEquiv1 dot_S128x1024_S1024x64_S128x64_1_0_0_1_n_n 1024 rfl rfl).symm]
  refine Finset.sum_congr rfl fun k _ => ?_
  have hk := contrEquiv1_symm_val dot_S128x1024_S1024x64_S128x64_1_0_0_1_n_n 1024 rfl rfl k
  have el : dot_S128x1024_S1024x64_S128x64_1_0_0_1_n_n.lhsIdx (ix2 p e) ((contrEquiv1 dot_S128x1024_S1024x64_S128x64_1_0_0_1_n_n 1024 rfl rfl).symm k) = ix2 p k :=
    funext fun x => Fin.ext (by
      match x with
      | ⟨0, _⟩ => exact lhs_proj_0 _ _
      | ⟨1, _⟩ => exact (lhs_proj_1 _ _).trans hk)
  have er : dot_S128x1024_S1024x64_S128x64_1_0_0_1_n_n.rhsIdx (ix2 p e) ((contrEquiv1 dot_S128x1024_S1024x64_S128x64_1_0_0_1_n_n 1024 rfl rfl).symm k) = ix2 k e :=
    funext fun x => Fin.ext (by
      match x with
      | ⟨0, _⟩ => exact (rhs_proj_0 _ _).trans hk
      | ⟨1, _⟩ => exact rhs_proj_1 _ _)
  rw [el, er]

/-- Entry `(p, e)` of the body's [128, 64] projection block. -/
theorem proj_body_at (x0 : Vec Ideal S1x128x1024 .f32) (x1 x2 : Vec Ideal S1x1024 .f32) (x3 : Vec Ideal S1024x64 .f32)
    (x4 : Vec Ideal S1x64 .f32) (p : Fin 128) (e : Fin 64) :
    k0_pay2 (F := Ideal) x0 x1 x2 x3 x4 (ix2 p e)
      = Cert.PairSpec.rowProj (fun c => x0 (ix3 (0 : Fin 1) p c)) (fun c => x1 (ix2 (0 : Fin 1) c)) (fun c => x2 (ix2 (0 : Fin 1) c))
          (fun c => x3 (ix2 c e)) (x4 (ix2 (0 : Fin 1) e)) := by
  unfold k0_pay2 Cert.PairSpec.rowProj
  refine (addf_apply _ _ _).trans (congrArg₂ (· + ·) ?_ ?_)
  · refine (matmul_at _ _ p e).trans (Finset.sum_congr rfl fun c _ => congrArg₂ (· * ·) ?_ ?_)
    · refine (truncf_apply (ψ := .bf16) (φ := .f32) _ bitsLt_bf16_f32 _).trans ((shapeCast_1ab_ab_apply _ _ p c).trans ?_)
      unfold Cert.PairSpec.rowNorm
      refine (addf_apply _ _ _).trans (congrArg₂ (· + ·) ?_ (row_at x2 _ _ _ p c))
      refine (mulf_apply _ _ _).trans (congrArg₂ (· * ·) ?_ (row_at x1 _ _ _ p c))
      refine (mulf_apply _ _ _).trans (congrArg₂ (· * ·) (center_at x0 _ _ _ _ _ p c) ?_)
      unfold Cert.PairSpec.rowInv
      refine (inv_col_at _ _ _ _ _ _ p c).trans ?_
      refine congrArg (fun t => Ideal.rsqrt (Ideal.div t Cert.PairSpec.nCols + Cert.PairSpec.eps))
        (Finset.sum_congr rfl fun k _ => ?_)
      exact (mulf_apply _ _ _).trans (congrArg₂ (· * ·) (center_at x0 _ _ _ _ _ p k) (center_at x0 _ _ _ _ _ p k))
    · exact (truncf_apply (ψ := .bf16) (φ := .f32) _ bitsLt_bf16_f32 _).trans (congrFun (shapeCast_self x3 _) (ix2 c e))
  · rw [shapeCast_self]
    exact broadcastTo_1b_ab_apply x4 _ p e

end Cert.KernelIdeal.ProjBody

end
-- ==== Proof.Stage1Array.lean ====
/-
  The first kernel region's two output arrays, as functions of the arrays the region finds.

  The grid has 8 points; point `g` reads rows `128·g …` of the sequence, the gain and bias rows, the transposed projection
  weights and the projection bias whole, and writes block `g` of each of the two [1, 1024, 32] outputs: the first 32 and the
  last 32 columns of the row's 64 projections.  The 8 blocks tile each output.
-/
import proofs.«167212_j3453153706645_1_alg».proof.Proof.Gen.KernelIdeal.Frame
import proofs.«167212_j3453153706645_1_alg».proof.Proof.Stage1Body
import Idealize.ShloMosaic.Lib.Pipeline.Value
import Idealize.ShloMosaic.Lib.ValueIdx
import Idealize.ShloMosaic.Lib.ValueLayout

set_option maxRecDepth 16384

noncomputable section

namespace Cert.KernelIdeal.ProjArray

open Cert.KernelIdeal Cert.KernelIdeal.Gen Idealize.ShloMosaic Idealize.ShloMosaic.TcCoe Idealize.SL.Sem
open Idealize.ShloMosaic.ValueIdx
open Idealize.ShloMosaic.Pipeline (Dat)

/-- Entry `(l, e)` of the projection, from the arrays the region reads: the sequence `x`, the gain and bias as rows
    ([1, 1024]), the projection weights transposed ([1024, 64]) and the projection bias as a row ([1, 64]). -/
def projOf (x : S1x1024x1024.Idx → EReal) (g bb : S1x1024.Idx → EReal) (w : S1024x64.Idx → EReal) (pb : S1x64.Idx → EReal)
    (l : Fin 1024) (e : Fin 64) : EReal :=
  Cert.PairSpec.rowProj (fun c => x (ix3 (0 : Fin 1) l c)) (fun c => g (ix2 (0 : Fin 1) c)) (fun c => bb (ix2 (0 : Fin 1) c))
    (fun c => w (ix2 c e)) (pb (ix2 (0 : Fin 1) e))

/-- The first output: columns 0 … 31 of the projection. -/
def qOf (x : S1x1024x1024.Idx → EReal) (g bb : S1x1024.Idx → EReal) (w : S1024x64.Idx → EReal) (pb : S1x64.Idx → EReal) :
    S1x1024x32.Idx → EReal := fun i => projOf x g bb w pb (i 1) (Fin.castAdd 32 (i 2))

/-- The second output: columns 32 … 63 of the projection. -/
def kOf (x : S1x1024x1024.Idx → EReal) (g bb : S1x1024.Idx → EReal) (w : S1024x64.Idx → EReal) (pb : S1x64.Idx → EReal) :
    S1x1024x32.Idx → EReal := fun i => projOf x g bb w pb (i 1) (Fin.natAdd 32 (i 2))

/-! ## The two stored slices of the body's projection block -/

/-- The first store's entry `(0, p, d)` is the block's entry `(p, d)`. -/
theorem q_pay_at (x0 : Vec Ideal S1x128x1024 .f32) (x1 x2 : Vec Ideal S1x1024 .f32) (x3 : Vec Ideal S1024x64 .f32)
    (x4 : Vec Ideal S1x64 .f32) (p : Fin 128) (d : Fin 32) :
    k0_pay4 (F := Ideal) x0 x1 x2 x3 x4 (ix3 (0 : Fin 1) p d) = k0_pay2 (F := Ideal) x0 x1 x2 x3 x4 (ix2 p (Fin.castAdd 32 d)) := by
  unfold k0_pay4
  refine (shapeCast_ab_1ab_apply _ _ (0 : Fin 1) p d).trans ?_
  exact extractStridedSlice_apply _ _ _ (ix2 p d) (ix2 p (Fin.castAdd 32 d)) fun ax => match ax with
    | ⟨0, _⟩ => by show p.val = 0 + p.val; omega
    | ⟨1, _⟩ => by show d.val = 0 + d.val; omega

/-- The second store's entry `(0, p, d)` is the block's entry `(p, 32 + d)`. -/
theorem k_pay_at (x0 : Vec Ideal S1x128x1024 .f32) (x1 x2 : Vec Ideal S1x1024 .f32) (x3 : Vec Ideal S1024x64 .f32)
    (x4 : Vec Ideal S1x64 .f32) (p : Fin 128) (d : Fin 32) :
    k0_pay1 (F := Ideal) (k0_pay3 (F := Ideal) x0 x1 x2 x3 x4) (ix3 (0 : Fin 1) p d)
      = k0_pay2 (F := Ideal) x0 x1 x2 x3 x4 (ix2 p (Fin.natAdd 32 d)) := by
  unfold k0_pay1 k0_pay3
  refine (shapeCast_ab_1ab_apply _ _ (0 : Fin 1) p d).trans ?_
  exact extractStridedSlice_apply _ _ _ (ix2 p d) (ix2 p (Fin.natAdd 32 d)) fun ax => match ax with
    | ⟨0, _⟩ => by show p.val = 0 + p.val; omega
    | ⟨1, _⟩ => by show 32 + d.val = 32 + d.val; omega

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 8 grid points: the sequence window and both output windows move together along the row
    axis; the gain, bias, weight and projection-bias windows stay at block zero. -/
theorem idx_facts : ∀ t : Fin cfg0.N,
    win0_0.index t (0 : Fin 3) = 0 ∧ win0_0.index t (1 : Fin 3) = win0_5.index t (1 : Fin 3) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (2 : Fin 3) = 0 ∧ win0_5.index t (1 : Fin 3) ≤ 7
    ∧ win0_6.index t (0 : Fin 3) = 0 ∧ win0_6.index t (1 : Fin 3) = win0_5.index t (1 : Fin 3) ∧ win0_6.index t (2 : Fin 3) = 0 :=
  (by decide +kernel : ∀ t : Fin grid0.N, _)

/-- Every one of the 8 row blocks is some point's, for either output. -/
theorem idx_onto5 : ∀ (q1 : Fin 8), ∃ t : Fin cfg0.N, win0_5.index t = ![0, q1.val, 0] :=
  (by decide +kernel : ∀ (q1 : Fin 8), ∃ t : Fin grid0.N, win0_5.index t = ![0, q1.val, 0])
theorem idx_onto6 : ∀ (q1 : Fin 8), ∃ t : Fin cfg0.N, win0_6.index t = ![0, q1.val, 0] :=
  (by decide +kernel : ∀ (q1 : Fin 8), ∃ t : Fin grid0.N, win0_6.index t = ![0, q1.val, 0])

/-- The body's projection block at point `t`, entry `(p, e)`, is the projection of row `128·g + p` of the whole sequence: each
    input block read where the point's row block says. `r` is that row, given by its value. -/
theorem block_proj (c : Dev nD) (t : Fin cfg0.N) (p : Fin 128) (e : Fin 64) (r : Fin 1024)
    (hr : r.val = win0_5.index t (1 : Fin 3) * 128 + 1 * p.val) :
    k0_pay2 (F := Ideal) (iblk0 V c 0 t) (iblk0 V c 1 t) (iblk0 V c 2 t) (iblk0 V c 3 t) (iblk0 V c 4 t) (ix2 p e)
      = projOf (V c main_arg0) (V c main_v0) (V c main_v1) (V c main_v2) (V c main_v3) r e := by
  obtain ⟨e00, e01, e02, e10, e11, e20, e21, e30, e31, e40, e41, e50, e52, e51, e60, e61, e62⟩ := idx_facts t
  refine (Cert.KernelIdeal.ProjBody.proj_body_at (iblk0 V c 0 t) (iblk0 V c 1 t) (iblk0 V c 2 t) (iblk0 V c 3 t) (iblk0 V c 4 t) p e).trans ?_
  unfold projOf
  have hx : (fun k : Fin 1024 => iblk0 V c 0 t (ix3 (0 : Fin 1) p k)) = fun k => V c main_arg0 (ix3 (0 : Fin 1) r k) :=
    funext fun k => by
      show V c main_arg0 (((cfg0.win 0).blk t).view.emb (ix3 (0 : Fin 1) p k)) = _
      refine congrArg (V c main_arg0) (funext fun ax => Fin.ext ?_)
      match ax with
      | ⟨0, _⟩ => show win0_0.index t (0 : Fin 3) * 1 + 1 * 0 = 0; omega
      | ⟨1, _⟩ => show win0_0.index t (1 : Fin 3) * 128 + 1 * p.val = r.val; omega
      | ⟨2, _⟩ => show win0_0.index t (2 : Fin 3) * 1024 + 1 * k.val = k.val; omega
  have hg : (fun k : Fin 1024 => iblk0 V c 1 t (ix2 (0 : Fin 1) k)) = fun k => V c main_v0 (ix2 (0 : Fin 1) k) :=
    funext fun k => by
      show V c main_v0 (((cfg0.win 1).blk t).view.emb (ix2 (0 : Fin 1) k)) = _
      refine congrArg (V c main_v0) (funext fun ax => Fin.ext ?_)
      match ax with
      | ⟨0, _⟩ => show win0_1.index t (0 : Fin 2) * 1 + 1 * 0 = 0; omega
      | ⟨1, _⟩ => show win0_1.index t (1 : Fin 2) * 1024 + 1 * k.val = k.val; omega
  have hb : (fun k : Fin 1024 => iblk0 V c 2 t (ix2 (0 : Fin 1) k)) = fun k => V c main_v1 (ix2 (0 : Fin 1) k) :=
    funext fun k => by
      show V c main_v1 (((cfg0.win 2).blk t).view.emb (ix2 (0 : Fin 1) k)) = _
      refine congrArg (V c main_v1) (funext fun ax => Fin.ext ?_)
      match ax with
      | ⟨0, _⟩ => show win0_2.index t (0 : Fin 2) * 1 + 1 * 0 = 0; omega
      | ⟨1, _⟩ => show win0_2.index t (1 : Fin 2) * 1024 + 1 * k.val = k.val; omega
  have hw : (fun k : Fin 1024 => iblk0 V c 3 t (ix2 k e)) = fun k => V c main_v2 (ix2 k e) :=
    funext fun k => by
      show V c main_v2 (((cfg0.win 3).blk t).view.emb (ix2 k e)) = _
      refine congrArg (V c main_v2) (funext fun ax => Fin.ext ?_)
      match ax with
      | ⟨0, _⟩ => show win0_3.index t (0 : Fin 2) * 1024 + 1 * k.val = k.val; omega
      | ⟨1, _⟩ => show win0_3.index t (1 : Fin 2) * 64 + 1 * e.val = e.val; omega
  have hp : iblk0 V c 4 t (ix2 (0 : Fin 1) e) = V c main_v3 (ix2 (0 : Fin 1) e) := by
    show V c main_v3 (((cfg0.win 4).blk t).view.emb (ix2 (0 : Fin 1) e)) = _
    refine congrArg (V c main_v3) (funext fun ax => Fin.ext ?_)
    match ax with
    | ⟨0, _⟩ => show win0_4.index t (0 : Fin 2) * 1 + 1 * 0 = 0; omega
    | ⟨1, _⟩ => show win0_4.index t (1 : Fin 2) * 64 + 1 * e.val = e.val; omega
  exact congr (congr (congr (congr (congrArg Cert.PairSpec.rowProj hx) hg) hb) hw) hp

/-- What point `t` writes back to the first output is block `t` of `qOf`. -/
theorem flushed5_eq (c : Dev nD) (t : Fin cfg0.N) :
    (dat0 V c).flushed 5 t = ((cfg0.win 5).blk t).view.read (Elt Ideal)
      (qOf (V c main_arg0) (V c main_v0) (V c main_v1) (V c main_v2) (V c main_v3)) := by
  show (cfg0.win 5).cut (grid0.coords t) ((dat0 V c).after 5 t) = _
  rw [after0_5]
  unfold out0_5
  rw [View.canon_unit_zero hz3]
  simp only [View.ld_unit_zero (S := S1x128x1024) hz3, View.ld_unit_zero (S := S1x1024) hz2, View.ld_unit_zero (S := S1024x64) hz2,
    View.ld_unit_zero (S := S1x64) hz2]
  obtain ⟨e00, e01, e02, e10, e11, e20, e21, e30, e31, e40, e41, e50, e52, e51, e60, e61, e62⟩ := idx_facts t
  funext j
  obtain ⟨u, p, d, rfl⟩ : ∃ (u : Fin 1) (p : Fin 128) (d : Fin 32), j = ix3 u p d := ⟨j 0, j 1, j 2, eq_ix3 j⟩
  have hu : u = (0 : Fin 1) := Subsingleton.elim _ _
  subst hu
  show k0_pay4 (F := Ideal) (iblk0 V c 0 t) (iblk0 V c 1 t) (iblk0 V c 2 t) (iblk0 V c 3 t) (iblk0 V c 4 t) (ix3 (0 : Fin 1) p d)
    = qOf (V c main_arg0) (V c main_v0) (V c main_v1) (V c main_v2) (V c main_v3) (((cfg0.win 5).blk t).view.emb (ix3 (0 : Fin 1) p d))
  refine (q_pay_at (iblk0 V c 0 t) (iblk0 V c 1 t) (iblk0 V c 2 t) (iblk0 V c 3 t) (iblk0 V c 4 t) p d).trans ?_
  unfold qOf
  have hcol : (Fin.castAdd 32 d : Fin 64) = Fin.castAdd 32 ((((cfg0.win 5).blk t).view.emb (ix3 (0 : Fin 1) p d)) 2) := Fin.ext (by
    show d.val = win0_5.index t (2 : Fin 3) * 32 + 1 * d.val; omega)
  refine (block_proj V c t p (Fin.castAdd 32 d) ((((cfg0.win 5).blk t).view.emb (ix3 (0 : Fin 1) p d)) 1) (by
    show win0_5.index t (1 : Fin 3) * 128 + 1 * p.val = _; rfl)).trans ?_
  exact congrArg (projOf (V c main_arg0) (V c main_v0) (V c main_v1) (V c main_v2) (V c main_v3)
    ((((cfg0.win 5).blk t).view.emb (ix3 (0 : Fin 1) p d)) 1)) hcol

/-- What point `t` writes back to the second output is block `t` of `kOf`. -/
theorem flushed6_eq (c : Dev nD) (t : Fin cfg0.N) :
    (dat0 V c).flushed 6 t = ((cfg0.win 6).blk t).view.read (Elt Ideal)
      (kOf (V c main_arg0) (V c main_v0) (V c main_v1) (V c main_v2) (V c main_v3)) := by
  show (cfg0.win 6).cut (grid0.coords t) ((dat0 V c).after 6 t) = _
  rw [after0_6]
  unfold out0_6
  rw [View.canon_unit_zero hz3]
  simp only [View.ld_unit_zero (S := S1x128x1024) hz3, View.ld_unit_zero (S := S1x1024) hz2, View.ld_unit_zero (S := S1024x64) hz2,
    View.ld_unit_zero (S := S1x64) hz2]
  obtain ⟨e00, e01, e02, e10, e11, e20, e21, e30, e31, e40, e41, e50, e52, e51, e60, e61, e62⟩ := idx_facts t
  funext j
  obtain ⟨u, p, d, rfl⟩ : ∃ (u : Fin 1) (p : Fin 128) (d : Fin 32), j = ix3 u p d := ⟨j 0, j 1, j 2, eq_ix3 j⟩
  have hu : u = (0 : Fin 1) := Subsingleton.elim _ _
  subst hu
  show k0_pay1 (F := Ideal) (k0_pay3 (F := Ideal) (iblk0 V c 0 t) (iblk0 V c 1 t) (iblk0 V c 2 t) (iblk0 V c 3 t) (iblk0 V c 4 t)) (ix3 (0 : Fin 1) p d)
    = kOf (V c main_arg0) (V c main_v0) (V c main_v1) (V c main_v2) (V c main_v3) (((cfg0.win 6).blk t).view.emb (ix3 (0 : Fin 1) p d))
  refine (k_pay_at (iblk0 V c 0 t) (iblk0 V c 1 t) (iblk0 V c 2 t) (iblk0 V c 3 t) (iblk0 V c 4 t) p d).trans ?_
  unfold kOf
  have hcol : (Fin.natAdd 32 d : Fin 64) = Fin.natAdd 32 ((((cfg0.win 6).blk t).view.emb (ix3 (0 : Fin 1) p d)) 2) := Fin.ext (by
    show 32 + d.val = 32 + (win0_6.index t (2 : Fin 3) * 32 + 1 * d.val); omega)
  refine (block_proj V c t p (Fin.natAdd 32 d) ((((cfg0.win 6).blk t).view.emb (ix3 (0 : Fin 1) p d)) 1) (by
    show win0_6.index t (1 : Fin 3) * 128 + 1 * p.val = _; omega)).trans ?_
  exact congrArg (projOf (V c main_arg0) (V c main_v0) (V c main_v1) (V c main_v2) (V c main_v3)
    ((((cfg0.win 6).blk t).view.emb (ix3 (0 : Fin 1) p d)) 1)) hcol

/-- An index of an output is in point `t`'s block iff each coordinate is in the block's range on its axis. -/
theorem mem_blk5 (t : Fin cfg0.N) (i : S1x1024x32.Idx) :
    i ∈ ((cfg0.win 5).blk t).view.set ↔ ∀ a : Fin 3, win0_5.index t a * S1x128x32.size a ≤ (i a).val
      ∧ (i a).val < win0_5.index t a * S1x128x32.size a + S1x128x32.size a := by
  show i ∈ ((View.whole main_v4_0).slice (win0_5.rect t)).set ↔ _
  rw [View.set_slice_whole, Rect.mem_set_unit]
  exact Iff.rfl
theorem mem_blk6 (t : Fin cfg0.N) (i : S1x1024x32.Idx) :
    i ∈ ((cfg0.win 6).blk t).view.set ↔ ∀ a : Fin 3, win0_6.index t a * S1x128x32.size a ≤ (i a).val
      ∧ (i a).val < win0_6.index t a * S1x128x32.size a + S1x128x32.size a := by
  show i ∈ ((View.whole main_v4_1).slice (win0_6.rect t)).set ↔ _
  rw [View.set_slice_whole, Rect.mem_set_unit]
  exact Iff.rfl

/-- The 8 blocks tile each output: an index is in the block of the point whose block index is its row divided by 128. -/
theorem cover5 (i : S1x1024x32.Idx) :
    ∃ t : Fin cfg0.N, (cfg0.win 5).flush t = true ∧ i ∈ ((cfg0.win 5).blk t).view.set := by
  have hi0 : (i 0).val < 1 := (i 0).isLt
  have hi1 : (i 1).val < 1024 := (i 1).isLt
  have hi2 : (i 2).val < 32 := (i 2).isLt
  obtain ⟨t, ht⟩ := idx_onto5 ⟨(i 1).val / 128, by omega⟩
  have q0 : win0_5.index t (0 : Fin 3) = 0 := congrFun ht 0
  have q1 : win0_5.index t (1 : Fin 3) = (i 1).val / 128 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 128 ≤ (i 1).val ∧ (i 1).val < win0_5.index t (1 : Fin 3) * 128 + 128; omega
  | ⟨2, _⟩ => show win0_5.index t (2 : Fin 3) * 32 ≤ (i 2).val ∧ (i 2).val < win0_5.index t (2 : Fin 3) * 32 + 32; omega
theorem cover6 (i : S1x1024x32.Idx) :
    ∃ t : Fin cfg0.N, (cfg0.win 6).flush t = true ∧ i ∈ ((cfg0.win 6).blk t).view.set := by
  have hi0 : (i 0).val < 1 := (i 0).isLt
  have hi1 : (i 1).val < 1024 := (i 1).isLt
  have hi2 : (i 2).val < 32 := (i 2).isLt
  obtain ⟨t, ht⟩ := idx_onto6 ⟨(i 1).val / 128, by omega⟩
  have q0 : win0_6.index t (0 : Fin 3) = 0 := congrFun ht 0
  have q1 : win0_6.index t (1 : Fin 3) = (i 1).val / 128 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 32 ≤ (i 2).val ∧ (i 2).val < win0_6.index t (2 : Fin 3) * 32 + 32; omega

/-- The two output arrays after the region. -/
theorem final5 (c : Dev nD) :
    (dat0 V c).arrAt 5 cfg0.N = qOf (V c main_arg0) (V c main_v0) (V c main_v1) (V c main_v2) (V c main_v3) :=
  (dat0 V c).arrAt_eq_of_cover 5 _ (fun t _ => flushed5_eq V c t) cover5
theorem final6 (c : Dev nD) :
    (dat0 V c).arrAt 6 cfg0.N = kOf (V c main_arg0) (V c main_v0) (V c main_v1) (V c main_v2) (V c main_v3) :=
  (dat0 V c).arrAt_eq_of_cover 6 _ (fun t _ => flushed6_eq V c t) cover6

end Cert.KernelIdeal.ProjArray

end
-- ==== Proof.Stage2Body.lean ====
/-
  The second kernel's arithmetic at one entry.  With a block `x0` of 128 rows of `q`, a block `x1` of 128 rows of `k`, the two
  transposed halves `x2`, `x3` of the output weights ([32, 128] each) and the bias row `x4`, entry `(a, b, z)` of the stored block is
  `∑ d, (q b d · k a d) · x2 d z + ∑ d, (q b d - k a d) · x3 d z + x4 z`.
-/
import proofs.«167212_j3453153706645_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PairBody

open Cert.KernelIdeal Cert.KernelIdeal.Gen Idealize.ShloMosaic Idealize.ShloMosaic.ValueIdx

/-! ## Layout: the casts and broadcasts read at an index given by coordinates -/

section Layout
variable {α : Type}

/-- Row `a * 128 + b` of the flattened pair block. -/
abbrev pairRow (a b : Fin 128) : Fin 16384 := ⟨a.val * 128 + b.val, by have := a.isLt; have := b.isLt; omega⟩

/-- A `[128, 32]` array cast to `[128, 1, 32]` reads, at `(a, u, d)`, the operand at `(a, d)`. -/
theorem cast_ab_a1b_apply (y : S128x32.Idx → α) (h : S128x32.ShapeCasts S128x1x32) (a : Fin 128) (u : Fin 1) (d : Fin 32) :
    shapeCast S128x1x32 y h (ix3 a u d) = y (ix2 a d) :=
  shapeCast_apply y h _ _ (by
    have hu : u.val = 0 := by omega
    rw [Shape.rowMajor_val_three, Shape.rowMajor_val_two]
    show a.val * 32 + d.val = (a.val * 1 + u.val) * 32 + d.val
    rw [hu, Nat.mul_one, Nat.add_zero])

/-- A `[1, 128, 32]` array broadcast to `[128, 128, 32]` reads, at `(a, b, d)`, the operand at `(0, b, d)`. -/
theorem bcast_1bd_abd_apply (v : S1x128x32.Idx → α) (h : S1x128x32.Broadcasts S128x128x32) (a b : Fin 128) (d : Fin 32) :
    broadcastTo S128x128x32 v h (ix3 a b d) = v (ix3 (0 : Fin 1) b d) := by
  refine broadcastTo_apply v h (ix3 a b d) (ix3 (0 : Fin 1) b d) fun ax => ?_
  match ax with
  | ⟨0, _⟩ => rfl
  | ⟨1, _⟩ => rfl
  | ⟨2, _⟩ => rfl

/-- A `[128, 1, 32]` array broadcast to `[128, 128, 32]` reads, at `(a, b, d)`, the operand at `(a, 0, d)`. -/
theorem bcast_a1d_abd_apply (v : S128x1x32.Idx → α) (h : S128x1x32.Broadcasts S128x128x32) (a b : Fin 128) (d : Fin 32) :
    broadcastTo S128x128x32 v h (ix3 a b d) = v (ix3 a (0 : Fin 1) d) := by
  refine broadcastTo_apply v h (ix3 a b d) (ix3 a (0 : Fin 1) d) fun ax => ?_
  match ax with
  | ⟨0, _⟩ => rfl
  | ⟨1, _⟩ => rfl
  | ⟨2, _⟩ => rfl

/-- A `[128, 128, 32]` array cast to `[16384, 32]` reads, at row `a * 128 + b` and column `d`, the operand at `(a, b, d)`. -/
theorem cast_abd_rd_apply (w : S128x128x32.Idx → α) (h : S128x128x32.ShapeCasts S16384x32) (a b : Fin 128) (d : Fin 32) :
    shapeCast S16384x32 w h (ix2 (pairRow a b) d) = w (ix3 a b d) :=
  shapeCast_apply w h _ _ (by
    rw [Shape.rowMajor_val_three, Shape.rowMajor_val_two]
    rfl)

/-- A `[16384, 128]` array cast to `[1, 128, 128, 128]` reads, at `(0, a, b, z)`, the operand at row `a * 128 + b`, column `z`. -/
theorem cast_rz_1abz_apply (w : S16384x128.Idx → α) (h : S16384x128.ShapeCasts S1x128x128x128) (u : Fin 1) (a b z : Fin 128) :
    shapeCast S1x128x128x128 w h (ix4 u a b z) = w (ix2 (pairRow a b) z) :=
  shapeCast_apply w h _ _ (by
    have hu : u.val = 0 := by omega
    rw [Shape.rowMajor_val_four, Shape.rowMajor_val_two]
    show (a.val * 128 + b.val) * 128 + z.val = ((u.val * 128 + a.val) * 128 + b.val) * 128 + z.val
    rw [hu, Nat.zero_mul, Nat.zero_add])

end Layout

/-! ## The contraction read at an index -/

section Contraction

/-- The left operand's row coordinate is the output's. -/
theorem lhs_pair_0 (i : S16384x128.Idx) (q : dot_S16384x32_S32x128_S16384x128_1_0_0_1_n_n.contr.Idx) :
    (dot_S16384x32_S32x128_S16384x128_1_0_0_1_n_n.lhsIdx i q 0).val = (i 0).val := by
  unfold DotDims.lhsIdx
  rw [dif_neg (show ¬(0 : Fin S16384x32.rank) ∈ dot_S16384x32_S32x128_S16384x128_1_0_0_1_n_n.lhsBatch by decide), dif_pos (show (0 : Fin S16384x32.rank) ∈ dot_S16384x32_S32x128_S16384x128_1_0_0_1_n_n.lhsNonContracting by decide)]
  rfl
/-- The left operand's column coordinate is the contraction's. -/
theorem lhs_pair_1 (i : S16384x128.Idx) (q : dot_S16384x32_S32x128_S16384x128_1_0_0_1_n_n.contr.Idx) :
    (dot_S16384x32_S32x128_S16384x128_1_0_0_1_n_n.lhsIdx i q 1).val = (q ⟨0, by decide⟩).val :=
  dot_S16384x32_S32x128_S16384x128_1_0_0_1_n_n.lhsIdx_val_of_single rfl i q
/-- The right operand's row coordinate is the contraction's. -/
theorem rhs_pair_0 (i : S16384x128.Idx) (q : dot_S16384x32_S32x128_S16384x128_1_0_0_1_n_n.contr.Idx) :
    (dot_S16384x32_S32x128_S16384x128_1_0_0_1_n_n.rhsIdx i q 0).val = (q ⟨0, by decide⟩).val :=
  dot_S16384x32_S32x128_S16384x128_1_0_0_1_n_n.rhsIdx_val_of_single rfl i q
/-- The right operand's column coordinate is the output's. -/
theorem rhs_pair_1 (i : S16384x128.Idx) (q : dot_S16384x32_S32x128_S16384x128_1_0_0_1_n_n.contr.Idx) :
    (dot_S16384x32_S32x128_S16384x128_1_0_0_1_n_n.rhsIdx i q 1).val = (i 1).val := by
  unfold DotDims.rhsIdx
  rw [dif_neg (show ¬(1 : Fin S32x128.rank) ∈ dot_S16384x32_S32x128_S16384x128_1_0_0_1_n_n.rhsBatch by decide), dif_pos (show (1 : Fin S32x128.rank) ∈ dot_S16384x32_S32x128_S16384x128_1_0_0_1_n_n.rhsNonContracting by decide)]
  rfl

/-- A `[16384, 32] × [32, 128]` product into a zero accumulator: entry `(r, z)` is `∑ d, lhs (r, d) · rhs (d, z)`. -/
theorem pair_matmul_apply (lhs : FVec Ideal S16384x32 .bf16) (rhs : FVec Ideal S32x128 .bf16) (r : Fin 16384) (z : Fin 128) :
    matmul dot_S16384x32_S32x128_S16384x128_1_0_0_1_n_n none lhs rhs (constant S16384x128 .f32 0x00000000#32) (ix2 r z)
      = ∑ d : Fin 32, lhs (ix2 r d) * rhs (ix2 d z) := by
  simp only [matmul]
  rw [Ideal.matmul_constant_zero_apply, ← Equiv.sum_comp (contrEquiv1 dot_S16384x32_S32x128_S16384x128_1_0_0_1_n_n 32 rfl rfl).symm]
  refine Finset.sum_congr rfl fun k _ => ?_
  have hk := contrEquiv1_symm_val dot_S16384x32_S32x128_S16384x128_1_0_0_1_n_n 32 rfl rfl k
  have el : dot_S16384x32_S32x128_S16384x128_1_0_0_1_n_n.lhsIdx (ix2 r z) ((contrEquiv1 dot_S16384x32_S32x128_S16384x128_1_0_0_1_n_n 32 rfl rfl).symm k) = ix2 r k := funext fun a => Fin.ext (by
    match a with
    | ⟨0, _⟩ => exact lhs_pair_0 _ _
    | ⟨1, _⟩ => exact (lhs_pair_1 _ _).trans hk)
  have er : dot_S16384x32_S32x128_S16384x128_1_0_0_1_n_n.rhsIdx (ix2 r z) ((contrEquiv1 dot_S16384x32_S32x128_S16384x128_1_0_0_1_n_n 32 rfl rfl).symm k) = ix2 k z := funext fun a => Fin.ext (by
    match a with
    | ⟨0, _⟩ => exact (rhs_pair_0 _ _).trans hk
    | ⟨1, _⟩ => exact rhs_pair_1 _ _)
  rw [el, er]

end Contraction

/-! ## The two broadcast operands and the flattened factors -/

section Operands
variable {α : Type}

/-- The `q` block, cast to `[128, 32]` and back and spread over the first axis: entry `(a, b, d)` is `q (b, d)`. -/
theorem q_spread_apply (x : S1x128x32.Idx → α) (h0 : S1x128x32.ShapeCasts S1x128x32) (h1 : S1x128x32.ShapeCasts S128x32)
    (h2 : S128x32.ShapeCasts S1x128x32) (hb : S1x128x32.Broadcasts S128x128x32) (a b : Fin 128) (d : Fin 32) :
    broadcastTo S128x128x32 (shapeCast S1x128x32 (shapeCast S128x32 (shapeCast S1x128x32 x h0) h1) h2) hb (ix3 a b d)
      = x (ix3 (0 : Fin 1) b d) :=
  (bcast_1bd_abd_apply _ hb a b d).trans
    ((shapeCast_ab_1ab_apply _ h2 (0 : Fin 1) b d).trans
      ((shapeCast_1ab_ab_apply _ h1 b d).trans (congrFun (shapeCast_self x h0) _)))

/-- The `k` block, cast to `[128, 32]`, then to `[128, 1, 32]`, and spread over the second axis: entry `(a, b, d)` is `k (a, d)`. -/
theorem k_spread_apply (x : S1x128x32.Idx → α) (h0 : S1x128x32.ShapeCasts S1x128x32) (h1 : S1x128x32.ShapeCasts S128x32)
    (h2 : S128x32.ShapeCasts S128x1x32) (hb : S128x1x32.Broadcasts S128x128x32) (a b : Fin 128) (d : Fin 32) :
    broadcastTo S128x128x32 (shapeCast S128x1x32 (shapeCast S128x32 (shapeCast S1x128x32 x h0) h1) h2) hb (ix3 a b d)
      = x (ix3 (0 : Fin 1) a d) :=
  (bcast_a1d_abd_apply _ hb a b d).trans
    ((cast_ab_a1b_apply _ h2 a (0 : Fin 1) d).trans
      ((shapeCast_1ab_ab_apply _ h1 a d).trans (congrFun (shapeCast_self x h0) _)))

end Operands

/-- Entry `(0, a, b, z)` of the block the body stores. -/
theorem pair_body_at (x0 x1 : Vec Ideal S1x128x32 .f32) (x2 x3 : Vec Ideal S32x128 .f32) (x4 : Vec Ideal S1x128 .f32)
    (a b z : Fin 128) :
    k1_pay1 (F := Ideal) x0 x1 x2 x3 x4 (ix4 (0 : Fin 1) a b z)
      = ((∑ d : Fin 32, (x0 (ix3 (0 : Fin 1) b d) * x1 (ix3 (0 : Fin 1) a d)) * x2 (ix2 d z))
          + (∑ d : Fin 32, (x0 (ix3 (0 : Fin 1) b d) - x1 (ix3 (0 : Fin 1) a d)) * x3 (ix2 d z)))
        + x4 (ix2 (0 : Fin 1) z) := by
  unfold k1_pay1
  refine (cast_rz_1abz_apply _ _ (0 : Fin 1) a b z).trans ?_
  refine (addf_apply _ _ _).trans ?_
  refine congrArg₂ (· + ·) ((addf_apply _ _ _).trans (congrArg₂ (· + ·) ?_ ?_)) ?_
  · -- the product half: row `a * 128 + b` of the flattened products against `x2`
    refine (pair_matmul_apply _ _ (pairRow a b) z).trans ?_
    refine Finset.sum_congr rfl fun d _ => ?_
    refine congrArg₂ (· * ·) ?_ ?_
    · refine (truncf_apply (ψ := .bf16) _ bitsLt_bf16_f32 _).trans ((cast_abd_rd_apply _ _ a b d).trans ((mulf_apply _ _ _).trans ?_))
      exact congrArg₂ (· * ·) (q_spread_apply x0 _ _ _ _ a b d) (k_spread_apply x1 _ _ _ _ a b d)
    · exact (truncf_apply (ψ := .bf16) _ bitsLt_bf16_f32 _).trans (congrFun (shapeCast_self x2 _) _)
  · -- the difference half, against `x3`
    refine (pair_matmul_apply _ _ (pairRow a b) z).trans ?_
    refine Finset.sum_congr rfl fun d _ => ?_
    refine congrArg₂ (· * ·) ?_ ?_
    · refine (truncf_apply (ψ := .bf16) _ bitsLt_bf16_f32 _).trans ((cast_abd_rd_apply _ _ a b d).trans ((subf_apply _ _ _).trans ?_))
      exact congrArg₂ (· - ·) (q_spread_apply x0 _ _ _ _ a b d) (k_spread_apply x1 _ _ _ _ a b d)
    · exact (truncf_apply (ψ := .bf16) _ bitsLt_bf16_f32 _).trans (congrFun (shapeCast_self x3 _) _)
  · -- the bias row, the same on every row
    exact (broadcastTo_1b_ab_apply _ _ (pairRow a b) z).trans (congrFun (shapeCast_self x4 _) _)

end Cert.KernelIdeal.PairBody

end
-- ==== Proof.Stage2Array.lean ====
/-
  The second kernel region's output array, as one function of the arrays the region finds.

  The grid is 8 × 8; point `(g₀, g₁)` reads rows `128·g₁ …` of `q`, rows `128·g₀ …` of `k`, the two transposed weight halves and
  the bias row whole, and writes block `(g₀, g₁)` of the [1, 1024, 1024, 128] output.  Entry `(0, i, j, z)` of that block is the
  body's arithmetic at the block's coordinates, which reads `q` at row `j` and `k` at row `i` of the whole arrays; the 64 blocks
  tile the output, so the array after the region is that one function everywhere.
-/
import proofs.«167212_j3453153706645_1_alg».proof.Proof.Gen.KernelIdeal.Frame
import proofs.«167212_j3453153706645_1_alg».proof.Proof.Stage2Body
import Idealize.ShloMosaic.Lib.Pipeline.Value
import Idealize.ShloMosaic.Lib.ValueIdx

set_option maxRecDepth 16384

noncomputable section

namespace Cert.KernelIdeal.PairArray

open Cert.KernelIdeal Cert.KernelIdeal.Gen Idealize.ShloMosaic Idealize.ShloMosaic.TcCoe Idealize.SL.Sem
open Idealize.ShloMosaic.ValueIdx
open Idealize.ShloMosaic.Pipeline (Dat)

/-- The region's output from the five arrays it reads: `q`, `k`, the transposed halves `wp`, `wd` of the output weights
    ([32, 128] each) and the bias row `bz`. -/
def pairOf (q k : S1x1024x32.Idx → EReal) (wp wd : S32x128.Idx → EReal) (bz : S1x128.Idx → EReal) :
    S1x1024x1024x128.Idx → EReal := fun y =>
  ((∑ d : Fin 32, (q (ix3 (0 : Fin 1) (y 2) d) * k (ix3 (0 : Fin 1) (y 1) d)) * wp (ix2 d (y 3)))
    + (∑ d : Fin 32, (q (ix3 (0 : Fin 1) (y 2) d) - k (ix3 (0 : Fin 1) (y 1) d)) * wd (ix2 d (y 3))))
    + bz (ix2 (0 : Fin 1) (y 3))

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the 64 grid points: the `q` window moves with the output's third axis, the `k` window with its
    second, the weights and the bias stay at block zero, and the output's block indices are below 8. -/
theorem idx_facts : ∀ t : Fin cfg1.N,
    win1_0.index t (0 : Fin 3) = 0 ∧ win1_0.index t (1 : Fin 3) = win1_5.index t (2 : Fin 4) ∧ win1_0.index t (2 : Fin 3) = 0
    ∧ win1_1.index t (0 : Fin 3) = 0 ∧ win1_1.index t (1 : Fin 3) = win1_5.index t (1 : Fin 4) ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 4) = 0 ∧ win1_5.index t (3 : Fin 4) = 0
    ∧ win1_5.index t (1 : Fin 4) ≤ 7 ∧ win1_5.index t (2 : Fin 4) ≤ 7 :=
  (by decide +kernel : ∀ t : Fin grid1.N, _)

/-- Every one of the 8 × 8 output blocks is some point's. -/
theorem idx_onto : ∀ (q1 q2 : Fin 8), ∃ t : Fin cfg1.N, win1_5.index t = ![0, q1.val, q2.val, 0] :=
  (by decide +kernel : ∀ (q1 q2 : Fin 8), ∃ t : Fin grid1.N, win1_5.index t = ![0, q1.val, q2.val, 0])

/-- What point `t` writes back is block `t` of `pairOf` of the arrays the region finds. -/
theorem flushed_eq (c : Dev nD) (t : Fin cfg1.N) :
    (dat1 V c).flushed 5 t = ((cfg1.win 5).blk t).view.read (Elt Ideal)
      (pairOf (V c main_v4_0) (V c main_v4_1) (V c main_v6) (V c main_v8) (V c main_v9)) := by
  show (cfg1.win 5).cut (grid1.coords t) ((dat1 V c).after 5 t) = _
  rw [after1_5]
  unfold out1_5
  rw [View.canon_unit_zero hz4]
  simp only [View.ld_unit_zero (S := S1x128x32) hz3, View.ld_unit_zero (S := S32x128) hz2, View.ld_unit_zero (S := S1x128) hz2]
  obtain ⟨e00, e01, e02, e10, e11, e12, e20, e21, e30, e31, e40, e41, e50, e53, e51, e52⟩ := idx_facts t
  funext j
  obtain ⟨u, a, b, z, rfl⟩ : ∃ (u : Fin 1) (a b z : Fin 128), j = ix4 u a b z := ⟨j 0, j 1, j 2, j 3, eq_ix4 j⟩
  have hu : u = (0 : Fin 1) := Subsingleton.elim _ _
  subst hu
  show k1_pay1 (F := Ideal) (iblk1 V c 0 t) (iblk1 V c 1 t) (iblk1 V c 2 t) (iblk1 V c 3 t) (iblk1 V c 4 t) (ix4 (0 : Fin 1) a b z) = _
  refine (Cert.KernelIdeal.PairBody.pair_body_at (iblk1 V c 0 t) (iblk1 V c 1 t) (iblk1 V c 2 t) (iblk1 V c 3 t) (iblk1 V c 4 t) a b z).trans ?_
  show _ = pairOf (V c main_v4_0) (V c main_v4_1) (V c main_v6) (V c main_v8) (V c main_v9)
      (((cfg1.win 5).blk t).view.emb (ix4 (0 : Fin 1) a b z))
  -- each input block, read where the output block's coordinates say
  have hq : ∀ d : Fin 32, iblk1 V c 0 t (ix3 (0 : Fin 1) b d)
      = V c main_v4_0 (ix3 (0 : Fin 1) ((((cfg1.win 5).blk t).view.emb (ix4 (0 : Fin 1) a b z)) 2) d) := fun d => by
    show V c main_v4_0 (((cfg1.win 0).blk t).view.emb (ix3 (0 : Fin 1) b d)) = _
    refine congrArg (V c main_v4_0) (funext fun ax => Fin.ext ?_)
    match ax with
    | ⟨0, _⟩ => show win1_0.index t (0 : Fin 3) * 1 + 1 * 0 = 0; omega
    | ⟨1, _⟩ => show win1_0.index t (1 : Fin 3) * 128 + 1 * b.val = win1_5.index t (2 : Fin 4) * 128 + 1 * b.val; omega
    | ⟨2, _⟩ => show win1_0.index t (2 : Fin 3) * 32 + 1 * d.val = d.val; omega
  have hk : ∀ d : Fin 32, iblk1 V c 1 t (ix3 (0 : Fin 1) a d)
      = V c main_v4_1 (ix3 (0 : Fin 1) ((((cfg1.win 5).blk t).view.emb (ix4 (0 : Fin 1) a b z)) 1) d) := fun d => by
    show V c main_v4_1 (((cfg1.win 1).blk t).view.emb (ix3 (0 : Fin 1) a d)) = _
    refine congrArg (V c main_v4_1) (funext fun ax => Fin.ext ?_)
    match ax with
    | ⟨0, _⟩ => show win1_1.index t (0 : Fin 3) * 1 + 1 * 0 = 0; omega
    | ⟨1, _⟩ => show win1_1.index t (1 : Fin 3) * 128 + 1 * a.val = win1_5.index t (1 : Fin 4) * 128 + 1 * a.val; omega
    | ⟨2, _⟩ => show win1_1.index t (2 : Fin 3) * 32 + 1 * d.val = d.val; omega
  have hp : ∀ d : Fin 32, iblk1 V c 2 t (ix2 d z)
      = V c main_v6 (ix2 d ((((cfg1.win 5).blk t).view.emb (ix4 (0 : Fin 1) a b z)) 3)) := fun d => by
    show V c main_v6 (((cfg1.win 2).blk t).view.emb (ix2 d z)) = _
    refine congrArg (V c main_v6) (funext fun ax => Fin.ext ?_)
    match ax with
    | ⟨0, _⟩ => show win1_2.index t (0 : Fin 2) * 32 + 1 * d.val = d.val; omega
    | ⟨1, _⟩ => show win1_2.index t (1 : Fin 2) * 128 + 1 * z.val = win1_5.index t (3 : Fin 4) * 128 + 1 * z.val; omega
  have hd : ∀ d : Fin 32, iblk1 V c 3 t (ix2 d z)
      = V c main_v8 (ix2 d ((((cfg1.win 5).blk t).view.emb (ix4 (0 : Fin 1) a b z)) 3)) := fun d => by
    show V c main_v8 (((cfg1.win 3).blk t).view.emb (ix2 d z)) = _
    refine congrArg (V c main_v8) (funext fun ax => Fin.ext ?_)
    match ax with
    | ⟨0, _⟩ => show win1_3.index t (0 : Fin 2) * 32 + 1 * d.val = d.val; omega
    | ⟨1, _⟩ => show win1_3.index t (1 : Fin 2) * 128 + 1 * z.val = win1_5.index t (3 : Fin 4) * 128 + 1 * z.val; omega
  have hb : iblk1 V c 4 t (ix2 (0 : Fin 1) z)
      = V c main_v9 (ix2 (0 : Fin 1) ((((cfg1.win 5).blk t).view.emb (ix4 (0 : Fin 1) a b z)) 3)) := by
    show V c main_v9 (((cfg1.win 4).blk t).view.emb (ix2 (0 : Fin 1) z)) = _
    refine congrArg (V c main_v9) (funext fun ax => Fin.ext ?_)
    match ax with
    | ⟨0, _⟩ => show win1_4.index t (0 : Fin 2) * 1 + 1 * 0 = 0; omega
    | ⟨1, _⟩ => show win1_4.index t (1 : Fin 2) * 128 + 1 * z.val = win1_5.index t (3 : Fin 4) * 128 + 1 * z.val; omega
  unfold pairOf
  rw [hb]
  refine congrArg (· + _) ?_
  refine congrArg₂ (· + ·) (Finset.sum_congr rfl fun d _ => ?_) (Finset.sum_congr rfl fun d _ => ?_)
  · rw [hq d, hk d, hp d]
  · rw [hq d, hk d, hd d]

/-- An index of the output is in point `t`'s block iff each coordinate is in the block's range on its axis. -/
theorem mem_blk (t : Fin cfg1.N) (i : S1x1024x1024x128.Idx) :
    i ∈ ((cfg1.win 5).blk t).view.set ↔ ∀ a : Fin 4, win1_5.index t a * S1x128x128x128.size a ≤ (i a).val
      ∧ (i a).val < win1_5.index t a * S1x128x128x128.size a + S1x128x128x128.size a := by
  show i ∈ ((View.whole main_v10).slice (win1_5.rect t)).set ↔ _
  rw [View.set_slice_whole, Rect.mem_set_unit]
  exact Iff.rfl

/-- The 64 blocks tile the output: every index is in the block of the point whose block indices are its second and third
    coordinates divided by 128. -/
theorem cover (i : S1x1024x1024x128.Idx) :
    ∃ t : Fin cfg1.N, (cfg1.win 5).flush t = true ∧ i ∈ ((cfg1.win 5).blk t).view.set := by
  have hi0 : (i 0).val < 1 := (i 0).isLt
  have hi1 : (i 1).val < 1024 := (i 1).isLt
  have hi2 : (i 2).val < 1024 := (i 2).isLt
  have hi3 : (i 3).val < 128 := (i 3).isLt
  obtain ⟨t, ht⟩ := idx_onto ⟨(i 1).val / 128, by omega⟩ ⟨(i 2).val / 128, by omega⟩
  have q0 : win1_5.index t (0 : Fin 4) = 0 := congrFun ht 0
  have q1 : win1_5.index t (1 : Fin 4) = (i 1).val / 128 := congrFun ht 1
  have q2 : win1_5.index t (2 : Fin 4) = (i 2).val / 128 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 128 ≤ (i 1).val ∧ (i 1).val < win1_5.index t (1 : Fin 4) * 128 + 128; omega
  | ⟨2, _⟩ => show win1_5.index t (2 : Fin 4) * 128 ≤ (i 2).val ∧ (i 2).val < win1_5.index t (2 : Fin 4) * 128 + 128; omega
  | ⟨3, _⟩ => show win1_5.index t (3 : Fin 4) * 128 ≤ (i 3).val ∧ (i 3).val < win1_5.index t (3 : Fin 4) * 128 + 128; omega

/-- The output array after the region: `pairOf` of the arrays the region finds. -/
theorem final (c : Dev nD) :
    (dat1 V c).arrAt 5 cfg1.N = pairOf (V c main_v4_0) (V c main_v4_1) (V c main_v6) (V c main_v8) (V c main_v9) :=
  (dat1 V c).arrAt_eq_of_cover 5 _ (fun t _ => flushed_eq V c t) cover

end Cert.KernelIdeal.PairArray

end
-- ==== Proof.Glue.lean ====
/-
  From the launch memory to the result: what each region finds in the buffers it reads, and the result array as the
  specification's function of the seven arguments.

  Before the first region the host reshapes the gain, the bias and the projection bias into rows and transposes the projection
  weights; the first region leaves `q` and `k`; the host then cuts the output weights in two halves of 32 columns, transposes each,
  and reshapes the output bias into a row; the second region leaves the result.
-/
import proofs.«167212_j3453153706645_1_alg».proof.Proof.Gen.KernelIdeal.Frame
import proofs.«167212_j3453153706645_1_alg».proof.Proof.Spec
import proofs.«167212_j3453153706645_1_alg».proof.Proof.Stage1Array
import proofs.«167212_j3453153706645_1_alg».proof.Proof.Stage2Array
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the first region finds: the sequence as launched, and the host's reshapes and transpose of four arguments -/

theorem V1_arg0 (c : Dev nD) : V1 m ρ c main_arg0 = m ((c : Thread nD τ).loc main_arg0) := by
  show StableHlo.after hostOps0 (W0 m ρ c) (Proc.devRef .tc main_arg0) = _
  after_results

theorem V1_v0 (c : Dev nD) :
    V1 m ρ c main_v0 = shapeCast S1x1024 (m ((c : Thread nD τ).loc main_arg1)) shapeCasts_S1024_S1x1024 := by
  show StableHlo.after hostOps0 (W0 m ρ c) (Proc.devRef .tc main_v0) = _
  after_results
  rfl

theorem V1_v1 (c : Dev nD) :
    V1 m ρ c main_v1 = shapeCast S1x1024 (m ((c : Thread nD τ).loc main_arg2)) shapeCasts_S1024_S1x1024 := by
  show StableHlo.after hostOps0 (W0 m ρ c) (Proc.devRef .tc main_v1) = _
  after_results
  rfl

theorem V1_v2 (c : Dev nD) :
    V1 m ρ c main_v2 = transpose S1024x64 [1, 0] (m ((c : Thread nD τ).loc main_arg3)) transposes_S64x1024_S1024x64_1_0 := by
  show StableHlo.after hostOps0 (W0 m ρ c) (Proc.devRef .tc main_v2) = _
  after_results

theorem V1_v3 (c : Dev nD) :
    V1 m ρ c main_v3 = shapeCast S1x64 (m ((c : Thread nD τ).loc main_arg4)) shapeCasts_S64_S1x64 := by
  show StableHlo.after hostOps0 (W0 m ρ c) (Proc.devRef .tc main_v3) = _
  after_results
  rfl

/-- The gain row at column `k` is the gain at `k`. -/
theorem gain_at (c : Dev nD) (k : Fin 1024) :
    V1 m ρ c main_v0 (ix2 (0 : Fin 1) k) = m ((c : Thread nD τ).loc main_arg1) (ix1 k) := by
  rw [V1_v0]; exact shapeCast_a_1a_apply _ _ (0 : Fin 1) k
/-- The bias row at column `k` is the bias at `k`. -/
theorem bias_at (c : Dev nD) (k : Fin 1024) :
    V1 m ρ c main_v1 (ix2 (0 : Fin 1) k) = m ((c : Thread nD τ).loc main_arg2) (ix1 k) := by
  rw [V1_v1]; exact shapeCast_a_1a_apply _ _ (0 : Fin 1) k
/-- The transposed projection weights at `(k, e)` are the weights at `(e, k)`. -/
theorem weight_at (c : Dev nD) (k : Fin 1024) (e : Fin 64) :
    V1 m ρ c main_v2 (ix2 k e) = m ((c : Thread nD τ).loc main_arg3) (ix2 e k) := by
  rw [V1_v2]; exact transpose_ix2_apply _ _ k e
/-- The projection-bias row at column `e` is the projection bias at `e`. -/
theorem pbias_at (c : Dev nD) (e : Fin 64) :
    V1 m ρ c main_v3 (ix2 (0 : Fin 1) e) = m ((c : Thread nD τ).loc main_arg4) (ix1 e) := by
  rw [V1_v3]; exact shapeCast_a_1a_apply _ _ (0 : Fin 1) e

/-- The region's projection entry is the specification's, of the arguments as launched. -/
theorem proj_eq (c : Dev nD) (l : Fin 1024) (e : Fin 64) :
    Cert.KernelIdeal.ProjArray.projOf (V1 m ρ c main_arg0) (V1 m ρ c main_v0) (V1 m ρ c main_v1) (V1 m ρ c main_v2) (V1 m ρ c main_v3) l e
      = Cert.PairSpec.proj (m ((c : Thread nD τ).loc main_arg0)) (m ((c : Thread nD τ).loc main_arg1)) (m ((c : Thread nD τ).loc main_arg2))
          (m ((c : Thread nD τ).loc main_arg3)) (m ((c : Thread nD τ).loc main_arg4)) l e := by
  unfold Cert.KernelIdeal.ProjArray.projOf Cert.PairSpec.proj
  rw [V1_arg0]
  exact congr (congr (congr (congrArg (Cert.PairSpec.rowProj _) (funext fun k => gain_at m ρ c k)) (funext fun k => bias_at m ρ c k))
    (funext fun k => weight_at m ρ c k e)) (pbias_at m ρ c e)

/-! ## What the first region leaves, and the second finds -/

/-- `q` after the first region. -/
theorem q_after (c : Dev nD) :
    V3 m ρ c main_v4_0 = Cert.PairSpec.qArr (m ((c : Thread nD τ).loc main_arg0)) (m ((c : Thread nD τ).loc main_arg1))
      (m ((c : Thread nD τ).loc main_arg2)) (m ((c : Thread nD τ).loc main_arg3)) (m ((c : Thread nD τ).loc main_arg4)) := by
  have h1 : V3 m ρ c main_v4_0 = W2 m ρ c (Proc.devRef .tc main_v4_0) := by
    show StableHlo.after hostOps1 (W2 m ρ c) (Proc.devRef .tc main_v4_0) = _
    after_results
  rw [h1]
  refine ((W2_arr m ρ c 5).trans (Cert.KernelIdeal.ProjArray.final5 (V1 m ρ) c)).trans ?_
  funext i
  exact proj_eq m ρ c (i 1) (Fin.castAdd 32 (i 2))

/-- `k` after the first region. -/
theorem k_after (c : Dev nD) :
    V3 m ρ c main_v4_1 = Cert.PairSpec.kArr (m ((c : Thread nD τ).loc main_arg0)) (m ((c : Thread nD τ).loc main_arg1))
      (m ((c : Thread nD τ).loc main_arg2)) (m ((c : Thread nD τ).loc main_arg3)) (m ((c : Thread nD τ).loc main_arg4)) := by
  have h1 : V3 m ρ c main_v4_1 = W2 m ρ c (Proc.devRef .tc main_v4_1) := by
    show StableHlo.after hostOps1 (W2 m ρ c) (Proc.devRef .tc main_v4_1) = _
    after_results
  rw [h1]
  refine ((W2_arr m ρ c 6).trans (Cert.KernelIdeal.ProjArray.final6 (V1 m ρ) c)).trans ?_
  funext i
  exact proj_eq m ρ c (i 1) (Fin.natAdd 32 (i 2))

/-- The output weights and the output bias reach the second region's host operations as launched: the first region writes
    neither, nor do the host operations before it. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

theorem V3_v6 (c : Dev nD) :
    V3 m ρ c main_v6 = transpose S32x128 [1, 0] (extractStridedSlice S128x32 ![0, 0] (m ((c : Thread nD τ).loc main_arg5))
      slices_S128x64_S128x32_0_0) transposes_S128x32_S32x128_1_0 := by
  show StableHlo.after hostOps1 (W2 m ρ c) (Proc.devRef .tc main_v6) = _
  after_results
  rw [W2_arg5]
theorem V3_v8 (c : Dev nD) :
    V3 m ρ c main_v8 = transpose S32x128 [1, 0] (extractStridedSlice S128x32 ![0, 32] (m ((c : Thread nD τ).loc main_arg5))
      slices_S128x64_S128x32_0_32) transposes_S128x32_S32x128_1_0 := by
  show StableHlo.after hostOps1 (W2 m ρ c) (Proc.devRef .tc main_v8) = _
  after_results
  rw [W2_arg5]
theorem V3_v9 (c : Dev nD) :
    V3 m ρ c main_v9 = shapeCast S1x128 (m ((c : Thread nD τ).loc main_arg6)) shapeCasts_S128_S1x128 := by
  show StableHlo.after hostOps1 (W2 m ρ c) (Proc.devRef .tc main_v9) = _
  after_results
  rw [W2_arg6]
  rfl

/-- The first transposed half at `(d, z)` is the output weights at `(z, d)`. -/
theorem half0_at (c : Dev nD) (d : Fin 32) (z : Fin 128) :
    V3 m ρ c main_v6 (ix2 d z) = m ((c : Thread nD τ).loc main_arg5) (ix2 z (Fin.castAdd 32 d)) := by
  rw [V3_v6]
  refine (transpose_ix2_apply _ _ d z).trans ?_
  exact extractStridedSlice_apply _ _ _ (ix2 z d) (ix2 z (Fin.castAdd 32 d)) fun ax => match ax with
    | ⟨0, _⟩ => by show z.val = 0 + z.val; omega
    | ⟨1, _⟩ => by show d.val = 0 + d.val; omega
/-- The second transposed half at `(d, z)` is the output weights at `(z, 32 + d)`. -/
theorem half1_at (c : Dev nD) (d : Fin 32) (z : Fin 128) :
    V3 m ρ c main_v8 (ix2 d z) = m ((c : Thread nD τ).loc main_arg5) (ix2 z (Fin.natAdd 32 d)) := by
  rw [V3_v8]
  refine (transpose_ix2_apply _ _ d z).trans ?_
  exact extractStridedSlice_apply _ _ _ (ix2 z d) (ix2 z (Fin.natAdd 32 d)) fun ax => match ax with
    | ⟨0, _⟩ => by show z.val = 0 + z.val; omega
    | ⟨1, _⟩ => by show 32 + d.val = 32 + d.val; omega
/-- The output-bias row at column `z` is the output bias at `z`. -/
theorem obias_at (c : Dev nD) (z : Fin 128) :
    V3 m ρ c main_v9 (ix2 (0 : Fin 1) z) = m ((c : Thread nD τ).loc main_arg6) (ix1 z) := by
  rw [V3_v9]; exact shapeCast_a_1a_apply _ _ (0 : Fin 1) z

/-! ## The result -/

/-- After the run's last boundary the result buffer holds the specification's function of the seven arguments as launched. -/
theorem result_eq (c : Dev nD) :
    W4 m ρ c (Proc.devRef .tc main_v10)
      = Cert.PairSpec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W4_arr m ρ c 5).trans (Cert.KernelIdeal.PairArray.final (V3 m ρ) c)).trans ?_
  rw [q_after, k_after]
  funext y
  unfold Cert.KernelIdeal.PairArray.pairOf Cert.PairSpec.result Cert.PairSpec.pairArr Cert.PairSpec.pairAt
  refine congrArg₂ (· + ·) (congrArg₂ (· + ·) (Finset.sum_congr rfl fun d _ => ?_) (Finset.sum_congr rfl fun d _ => ?_)) ?_
  · exact congrArg (_ * ·) (half0_at m ρ c d (y 3))
  · exact congrArg (_ * ·) (half1_at m ρ c d (y 3))
  · exact obias_at m ρ c (y 3)

end Cert.KernelIdeal.Glue

end
-- ==== Proof.RefSide.lean ====
/-
  The reference's result is the specification's function of the seven arguments, entry by entry: its two row sums and
  quotients are the row's mean and variance, its `rsqrt` the reciprocal deviation, its first contraction the projection,
  its two slices `q` and `k`, and its last contraction over the 64 joined products and differences the two sums of 32.
-/
import proofs.«167212_j3453153706645_1_alg».proof.Proof.Gen.ReferenceIdeal.Run
import proofs.«167212_j3453153706645_1_alg».proof.Proof.Gen.ReferenceIdeal.Read
import proofs.«167212_j3453153706645_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Cert.ReferenceIdeal Cert.ReferenceIdeal.Gen Idealize.ShloMosaic Idealize.ShloMosaic.TcCoe Idealize.SL.Sem Idealize.ShloMosaic.ValueIdx
open Cert.ReferenceIdeal.Read Cert.PairSpec

/-- The first row sum over the 1024 divisor: the mean of row `l`, read at any index of that row. -/
theorem mean_at (x0 : (⟨S1x1024x1024, .f32⟩ : BufTy).Contents (Elt Ideal)) (l : Fin 1024) (j : S1x1024x1.Idx)
    (hj : (j 1).val = l.val) :
    val_main_v3 (F := Ideal) x0 j = rowMean (fun c => x0 (ix3 (0 : Fin 1) l c)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold rowMean
  refine congrArg (fun s => Ideal.div s _) (Finset.sum_congr rfl fun k _ => congrArg x0 ?_)
  exact funext fun a => Fin.ext (by match a with | ⟨0, _⟩ => rfl | ⟨1, _⟩ => exact hj | ⟨2, _⟩ => rfl)

/-- The second row sum, of the squared deviations from the mean, over the divisor, plus ε, under `rsqrt`: the reciprocal
    deviation of row `l`, read at any index of that row. -/
theorem inv_at (x0 : (⟨S1x1024x1024, .f32⟩ : BufTy).Contents (Elt Ideal)) (l : Fin 1024) (j : S1x1024x1.Idx)
    (hj : (j 1).val = l.val) :
    val_main_v15 (F := Ideal) x0 j = rowInv (fun c => x0 (ix3 (0 : Fin 1) l c)) := by
  rw [val_main_v15_apply, val_main_v14_apply, val_main_v10_apply, val_main_v8_apply, val_main_v7_apply, val_main_v9_apply,
    val_main_v13_apply, val_main_cst_1_apply, val_main_cst_2_apply, val_main_cst_3_apply]
  simp only [Ideal.hostUnary_rsqrt_def, Ideal.hostDivf_def, Ideal.addf_def, Ideal.ofBits_def, Ideal.ofBits_zero_f32, zero_add]
  unfold rowInv
  refine congrArg (fun s => Ideal.rsqrt (Ideal.div s _ + _)) (Finset.sum_congr rfl fun k _ => ?_)
  have e : idx_main_v7 (idx_main_v8 j) k = ix3 (0 : Fin 1) l k :=
    funext fun a => Fin.ext (by match a with | ⟨0, _⟩ => rfl | ⟨1, _⟩ => exact hj | ⟨2, _⟩ => rfl)
  rw [e, val_main_v6_apply, val_main_v5_apply, val_main_v4_apply, mean_at x0 l _ rfl]
  rfl

/-- The normalised entry `(0, l, c)`: deviation from the mean times the reciprocal deviation times the gain, plus the bias. -/
theorem norm_at (x0 : (⟨S1x1024x1024, .f32⟩ : BufTy).Contents (Elt Ideal)) (x1 x2 : (⟨S1024, .f32⟩ : BufTy).Contents (Elt Ideal))
    (l c : Fin 1024) :
    val_main_v23 (F := Ideal) x0 x1 x2 (ix3 (0 : Fin 1) l c)
      = rowNorm (fun c => x0 (ix3 (0 : Fin 1) l c)) (fun c => x1 (ix1 c)) (fun c => x2 (ix1 c)) c := by
  rw [val_main_v23_apply, val_main_v20_apply, val_main_v17_apply, val_main_v12_apply, val_main_v11_apply, val_main_v16_apply,
    val_main_v19_apply, val_main_v18_apply, val_main_v22_apply, val_main_v21_apply, mean_at x0 l _ rfl, inv_at x0 l _ rfl]
  have e1 : idx_main_v18 (idx_main_v19 (ix3 (0 : Fin 1) l c)) = ix1 c :=
    funext fun a => Fin.ext (by match a with | ⟨0, _⟩ => rfl)
  have e2 : idx_main_v21 (idx_main_v22 (ix3 (0 : Fin 1) l c)) = ix1 c :=
    funext fun a => Fin.ext (by match a with | ⟨0, _⟩ => rfl)
  rw [e1, e2]
  rfl

/-- The first contraction plus its offset, at `(0, l, e)`: the projection of the normalised row `l` on weight row `e`. -/
theorem proj_at (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (l : Fin 1024) (e : Fin 64) :
    val_main_v27 (F := Ideal) x0 x1 x2 x3 x4 (ix3 (0 : Fin 1) l e) = proj x0 x1 x2 x3 x4 l e := by
  rw [val_main_v27_apply, val_main_v24_apply, val_main_v26_apply, val_main_v25_apply]
  have e1 : idx_main_v25 (idx_main_v26 (ix3 (0 : Fin 1) l e)) = ix1 e :=
    funext fun a => Fin.ext (by match a with | ⟨0, _⟩ => rfl)
  rw [e1]
  simp only [Ideal.addf_def]
  unfold proj rowProj
  refine congrArg (fun s => s + x4 (ix1 e)) (Finset.sum_congr rfl fun k _ => ?_)
  have el : lidx_main_v24 (ix3 (0 : Fin 1) l e) k = ix3 (0 : Fin 1) l k :=
    funext fun a => Fin.ext (by match a with | ⟨0, _⟩ => rfl | ⟨1, _⟩ => rfl | ⟨2, _⟩ => rfl)
  have er : ridx_main_v24 (ix3 (0 : Fin 1) l e) k = ix2 e k :=
    funext fun a => Fin.ext (by match a with | ⟨0, _⟩ => rfl | ⟨1, _⟩ => rfl)
  rw [el, er, norm_at]

/-- The slice `[0:32]` of the projections is `q`. -/
theorem v28_eq (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal)) :
    val_main_v28 (F := Ideal) x0 x1 x2 x3 x4 = qArr x0 x1 x2 x3 x4 := by
  funext i
  obtain ⟨a, l, d, rfl⟩ : ∃ (a : Fin 1) (l : Fin 1024) (d : Fin 32), i = ix3 a l d := ⟨i 0, i 1, i 2, eq_ix3 i⟩
  obtain rfl : a = 0 := Subsingleton.elim _ _
  have e : idx_main_v28 (ix3 (0 : Fin 1) l d) = ix3 (0 : Fin 1) l (Fin.castAdd 32 d) :=
    funext fun a => Fin.ext (by match a with | ⟨0, _⟩ => rfl | ⟨1, _⟩ => rfl | ⟨2, _⟩ => rfl)
  rw [val_main_v28_apply, e, proj_at]
  rfl

/-- The slice `[32:64]` of the projections is `k`. -/
theorem v29_eq (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal)) :
    val_main_v29 (F := Ideal) x0 x1 x2 x3 x4 = kArr x0 x1 x2 x3 x4 := by
  funext i
  obtain ⟨a, l, d, rfl⟩ : ∃ (a : Fin 1) (l : Fin 1024) (d : Fin 32), i = ix3 a l d := ⟨i 0, i 1, i 2, eq_ix3 i⟩
  obtain rfl : a = 0 := Subsingleton.elim _ _
  have e : idx_main_v29 (ix3 (0 : Fin 1) l d) = ix3 (0 : Fin 1) l (Fin.natAdd 32 d) :=
    funext fun a => Fin.ext (by match a with | ⟨0, _⟩ => rfl | ⟨1, _⟩ => rfl | ⟨2, _⟩ => rfl)
  rw [val_main_v29_apply, e, proj_at]
  rfl

/-- The joined array's first 32 entries along the last axis are the products `q (0, j, d) · k (0, i, d)`. -/
theorem v40_left (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal)) (i j : Fin 1024) (d : Fin 32) :
    val_main_v40 (F := Ideal) x0 x1 x2 x3 x4 (ix4 (0 : Fin 1) i j (Fin.castAdd 32 d))
      = val_main_v28 (F := Ideal) x0 x1 x2 x3 x4 (ix3 (0 : Fin 1) j d)
        * val_main_v29 (F := Ideal) x0 x1 x2 x3 x4 (ix3 (0 : Fin 1) i d) := by
  unfold val_main_v40
  refine (concatenate_pair_apply_left (3 : Fin S1x1024x1024x64.rank) _ _
    concatenates_S1x1024x1024x32_S1x1024x1024x32_S1x1024x1024x64_d3 (ix4 (0 : Fin 1) i j (Fin.castAdd 32 d)) rfl
    (ix4 (0 : Fin 1) i j d) (fun b => match b with | ⟨0, _⟩ => rfl | ⟨1, _⟩ => rfl | ⟨2, _⟩ => rfl | ⟨3, _⟩ => rfl)).trans ?_
  have e1 : idx_main_v30 (idx_main_v32 (ix4 (0 : Fin 1) i j d)) = ix3 (0 : Fin 1) j d :=
    funext fun a => Fin.ext (by match a with | ⟨0, _⟩ => rfl | ⟨1, _⟩ => rfl | ⟨2, _⟩ => rfl)
  have e2 : idx_main_v31 (idx_main_v33 (ix4 (0 : Fin 1) i j d)) = ix3 (0 : Fin 1) i d :=
    funext fun a => Fin.ext (by match a with | ⟨0, _⟩ => rfl | ⟨1, _⟩ => rfl | ⟨2, _⟩ => rfl)
  rw [val_main_v34_apply, val_main_v32_apply, val_main_v30_apply, val_main_v33_apply, val_main_v31_apply, e1, e2]
  rfl

/-- The joined array's last 32 entries along the last axis are the differences `q (0, j, d) - k (0, i, d)`. -/
theorem v40_right (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal)) (i j : Fin 1024) (d : Fin 32) :
    val_main_v40 (F := Ideal) x0 x1 x2 x3 x4 (ix4 (0 : Fin 1) i j (Fin.natAdd 32 d))
      = val_main_v28 (F := Ideal) x0 x1 x2 x3 x4 (ix3 (0 : Fin 1) j d)
        - val_main_v29 (F := Ideal) x0 x1 x2 x3 x4 (ix3 (0 : Fin 1) i d) := by
  unfold val_main_v40
  refine (concatenate_pair_apply_right (3 : Fin S1x1024x1024x64.rank) _ _
    concatenates_S1x1024x1024x32_S1x1024x1024x32_S1x1024x1024x64_d3 (ix4 (0 : Fin 1) i j (Fin.natAdd 32 d)) rfl rfl
    (ix4 (0 : Fin 1) i j d) (fun b => match b with
      | ⟨0, _⟩ => fun _ => rfl | ⟨1, _⟩ => fun _ => rfl | ⟨2, _⟩ => fun _ => rfl | ⟨3, _⟩ => fun h => absurd rfl h)
    (by show d.val + 32 = 32 + d.val; omega)).trans ?_
  have e1 : idx_main_v35 (idx_main_v37 (ix4 (0 : Fin 1) i j d)) = ix3 (0 : Fin 1) j d :=
    funext fun a => Fin.ext (by match a with | ⟨0, _⟩ => rfl | ⟨1, _⟩ => rfl | ⟨2, _⟩ => rfl)
  have e2 : idx_main_v36 (idx_main_v38 (ix4 (0 : Fin 1) i j d)) = ix3 (0 : Fin 1) i d :=
    funext fun a => Fin.ext (by match a with | ⟨0, _⟩ => rfl | ⟨1, _⟩ => rfl | ⟨2, _⟩ => rfl)
  rw [val_main_v39_apply, val_main_v37_apply, val_main_v35_apply, val_main_v38_apply, val_main_v36_apply, e1, e2]
  rfl

/-- The last contraction plus its offset, at `(0, i, j, z)`: the sum over the 64 joined entries splits into the 32 products
    and the 32 differences, each against its half of row `z` of the output weights. -/
theorem res_at (x0 : (⟨S1x1024x1024, .f32⟩ : BufTy).Contents (Elt Ideal)) (x1 x2 : (⟨S1024, .f32⟩ : BufTy).Contents (Elt Ideal))
    (x3 : (⟨S64x1024, .f32⟩ : BufTy).Contents (Elt Ideal)) (x4 : (⟨S64, .f32⟩ : BufTy).Contents (Elt Ideal))
    (x5 : (⟨S128x64, .f32⟩ : BufTy).Contents (Elt Ideal)) (x6 : (⟨S128, .f32⟩ : BufTy).Contents (Elt Ideal)) (i j : Fin 1024) (z : Fin 128) :
    val_main_v44 (F := Ideal) x0 x1 x2 x3 x4 x5 x6 (ix4 (0 : Fin 1) i j z)
      = pairAt (val_main_v28 (F := Ideal) x0 x1 x2 x3 x4) (val_main_v29 (F := Ideal) x0 x1 x2 x3 x4) x5 x6 i j z := by
  have e1 : idx_main_v42 (idx_main_v43 (ix4 (0 : Fin 1) i j z)) = ix1 z :=
    funext fun a => Fin.ext (by match a with | ⟨0, _⟩ => rfl)
  rw [val_main_v44_apply, val_main_v41_apply, val_main_v43_apply, val_main_v42_apply, e1, sum64_split]
  simp only [Ideal.addf_def]
  unfold pairAt
  refine congrArg (fun s => s + x6 (ix1 z))
    (congrArg₂ (fun s t => s + t) (Finset.sum_congr rfl fun d _ => ?_) (Finset.sum_congr rfl fun d _ => ?_))
  · have el : lidx_main_v41 (ix4 (0 : Fin 1) i j z) (Fin.castAdd 32 d) = ix4 (0 : Fin 1) i j (Fin.castAdd 32 d) :=
      funext fun a => Fin.ext (by match a with | ⟨0, _⟩ => rfl | ⟨1, _⟩ => rfl | ⟨2, _⟩ => rfl | ⟨3, _⟩ => rfl)
    have er : ridx_main_v41 (ix4 (0 : Fin 1) i j z) (Fin.castAdd 32 d) = ix2 z (Fin.castAdd 32 d) :=
      funext fun a => Fin.ext (by match a with | ⟨0, _⟩ => rfl | ⟨1, _⟩ => rfl)
    rw [el, er, v40_left]
  · have el : lidx_main_v41 (ix4 (0 : Fin 1) i j z) (Fin.natAdd 32 d) = ix4 (0 : Fin 1) i j (Fin.natAdd 32 d) :=
      funext fun a => Fin.ext (by match a with | ⟨0, _⟩ => rfl | ⟨1, _⟩ => rfl | ⟨2, _⟩ => rfl | ⟨3, _⟩ => rfl)
    have er : ridx_main_v41 (ix4 (0 : Fin 1) i j z) (Fin.natAdd 32 d) = ix2 z (Fin.natAdd 32 d) :=
      funext fun a => Fin.ext (by match a with | ⟨0, _⟩ => rfl | ⟨1, _⟩ => rfl)
    rw [el, er, v40_right]

/-- The reference run's result term is the specification's result of the launch contents of the seven arguments. -/
theorem ref_result (m : (ℓ : Loc nD τ sig) → Buf (Elt Ideal) ℓ) (c : Dev nD) :
    Cert.ReferenceIdeal.Value.res_main_v44 (F := Ideal) m c
      = Cert.PairSpec.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (val_main_v44_eq (F := Ideal) m c).trans ?_
  unfold result pairArr
  funext y
  obtain ⟨a, i, j, z, rfl⟩ : ∃ (a : Fin 1) (i j : Fin 1024) (z : Fin 128), y = ix4 a i j z :=
    ⟨y 0, y 1, y 2, y 3, eq_ix4 y⟩
  obtain rfl : a = 0 := Subsingleton.elim _ _
  refine (res_at _ _ _ _ _ _ _ i j z).trans ?_
  rw [v28_eq, v29_eq]

end Cert.ReferenceIdeal.RefSide

end
-- ==== Proof.lean ====
/-
  The certificate: a row-wise LayerNorm and projection to `q` and `k` (first kernel), then the pairwise tensor
  `∑ d, (q j d · k i d) · o z d + ∑ d, (q j d - k i d) · o z (32 + d) + c z` (second kernel), against the jnp reference that
  normalises, projects, splits, forms products and differences, joins them on the last axis and contracts the 64 joined columns
  with the output weights.

  At the extended reals both programs compute `Cert.PairSpec.result` of the seven arguments (Proof/Spec.lean): the kernels' lane
  sums and block products are the reference's row sums and contractions (a sum's order and grouping do not matter, and a change of
  float format is the identity), both divide by the same word 1024.0 and add the same word ε, and the reference's one contraction
  over 64 columns is the kernels' two over 32, a sum split in two (commutativity and associativity of the extended reals' addition:
  no entry needs to be finite, so the precondition is never opened).

  The frames of the two kernel programs are the generated ones; the reference's is its generated run with the result dropped.
  The kernel program's value is read off its frame: the launch over the generated segments names the result buffer at the last
  boundary's contents (Proof/RunNamed.lean), each region's output array is one function of what the region finds
  (Proof/Stage1Array.lean, Proof/Stage2Array.lean over the bodies' arithmetic at an entry, Proof/Stage1Body.lean and
  Proof/Stage2Body.lean), and the host operations between the regions are read at an index (Proof/Glue.lean). The reference's value
  is its run read stage by stage (Proof/RefSide.lean).
-/
import proofs.«167212_j3453153706645_1_alg».proof.Defs
import proofs.«167212_j3453153706645_1_alg».proof.Proof.Gen.Kernel
import proofs.«167212_j3453153706645_1_alg».proof.Proof.Gen.Kernel.Skeleton
import proofs.«167212_j3453153706645_1_alg».proof.Proof.Gen.Kernel.Launch
import proofs.«167212_j3453153706645_1_alg».proof.Proof.Gen.Kernel.Points
import proofs.«167212_j3453153706645_1_alg».proof.Proof.Gen.Kernel.Frame
import proofs.«167212_j3453153706645_1_alg».proof.Proof.Gen.KernelIdeal
import proofs.«167212_j3453153706645_1_alg».proof.Proof.Gen.KernelIdeal.Skeleton
import proofs.«167212_j3453153706645_1_alg».proof.Proof.Gen.KernelIdeal.Launch
import proofs.«167212_j3453153706645_1_alg».proof.Proof.Gen.KernelIdeal.Points
import proofs.«167212_j3453153706645_1_alg».proof.Proof.Gen.KernelIdeal.Frame
import proofs.«167212_j3453153706645_1_alg».proof.Proof.Gen.ReferenceIdeal
import proofs.«167212_j3453153706645_1_alg».proof.Proof.Gen.ReferenceIdeal.Run
import proofs.«167212_j3453153706645_1_alg».proof.Proof.Gen.Pre_finite_inputs
import proofs.«167212_j3453153706645_1_alg».proof.Proof.RunNamed
import proofs.«167212_j3453153706645_1_alg».proof.Proof.Glue
import proofs.«167212_j3453153706645_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at `Cert.PairSpec.result` of the arguments, which agree. -/
theorem algebraic : Cert.algebraic_KernelIdeal_ReferenceIdeal := by
  intro m ρ m' ρ' _ hagree
  refine ⟨fun c => Cert.PairSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Glue.result_eq m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefSide.ref_result, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
